-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v30)) (v1 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_v28) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_v41) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S4096x2048 : Shape := ⟨2, ![4096, 2048]⟩
abbrev S4x2560x2560 : Shape := ⟨3, ![4, 2560, 2560]⟩
abbrev S4x2560 : Shape := ⟨2, ![4, 2560]⟩
abbrev S2048x2560 : Shape := ⟨2, ![2048, 2560]⟩
abbrev S2048 : Shape := ⟨1, ![2048]⟩
abbrev S512x2560 : Shape := ⟨2, ![512, 2560]⟩
abbrev S512 : Shape := ⟨1, ![512]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S4096x2048 : S_.BroadcastsInDim S4096x2048 (![] : Fin 0 → Fin S4096x2048.rank)
  reducesTo_S4096x2048_S_d0_1 : S4096x2048.ReducesTo [0, 1] S_
  bcast_S_S4x2560x2560 : S_.BroadcastsInDim S4x2560x2560 (![] : Fin 0 → Fin S4x2560x2560.rank)
  reducesTo_S4x2560x2560_S_d0_1_2 : S4x2560x2560.ReducesTo [0, 1, 2] S_
  bcast_S_S4x2560 : S_.BroadcastsInDim S4x2560 (![] : Fin 0 → Fin S4x2560.rank)
  reducesTo_S4x2560_S_d0_1 : S4x2560.ReducesTo [0, 1] S_
  bcast_S_S2048x2560 : S_.BroadcastsInDim S2048x2560 (![] : Fin 0 → Fin S2048x2560.rank)
  reducesTo_S2048x2560_S_d0_1 : S2048x2560.ReducesTo [0, 1] S_
  bcast_S_S2048 : S_.BroadcastsInDim S2048 (![] : Fin 0 → Fin S2048.rank)
  reducesTo_S2048_S_d0 : S2048.ReducesTo [0] S_
  bcast_S_S512x2560 : S_.BroadcastsInDim S512x2560 (![] : Fin 0 → Fin S512x2560.rank)
  reducesTo_S512x2560_S_d0_1 : S512x2560.ReducesTo [0, 1] S_
  bcast_S_S512 : S_.BroadcastsInDim S512 (![] : Fin 0 → Fin S512.rank)
  reducesTo_S512_S_d0 : S512.ReducesTo [0] S_

variable [Facts]

def fn_part2 {F : FTy → Type} [FloatOps F] (main_arg7 : FVec F S512 .f32) (main_v33 : IVec S_ 1) : IVec S_ 1 :=
  let main_v34 : FVec F S512 .f32 := Host.absf main_arg7
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  main_v38

def fn_part1 {F : FTy → Type} [FloatOps F] (main_arg4 : FVec F S2048x2560 .f32) (main_arg5 : FVec F S2048 .f32) (main_arg6 : FVec F S512x2560 .f32) (main_arg7 : FVec F S512 .f32) (main_v13 : IVec S_ 1) (main_v16 : IVec S4x2560 1) : IVec S_ 1 :=
  let main_c_5 : IVec S_ 1 := constantI S_ 1 1#1
  let main_v17 : IVec S_ 1 := (fun x v => Host.reduce IntOp.andi x v reducesTo_S4x2560_S_d0_1 h_S_) main_v16 main_c_5
  let main_v18 : IVec S_ 1 := andi main_v13 main_v17
  let main_v19 : FVec F S2048x2560 .f32 := Host.absf main_arg4
  let main_cst_6 : FVec F S_ .f32 := constant S_ .f32 0x7F800000#32
  let main_v20 : FVec F S2048x2560 .f32 := broadcastInDim S2048x2560 ![] bcast_S_S2048x2560 main_cst_6
  let main_v21 : IVec S2048x2560 1 := cmpf .olt main_v19 main_v20
  let main_c_7 : IVec S_ 1 := constantI S_ 1 1#1
  let main_v22 : IVec S_ 1 := (fun x v => Host.reduce IntOp.andi x v reducesTo_S2048x2560_S_d0_1 h_S_) main_v21 main_c_7
  let main_v23 : IVec S_ 1 := andi main_v18 main_v22
  let main_v24 : FVec F S2048 .f32 := Host.absf main_arg5
  let main_cst_8 : FVec F S_ .f32 := constant S_ .f32 0x7F800000#32
  let main_v25 : FVec F S2048 .f32 := broadcastInDim S2048 ![] bcast_S_S2048 main_cst_8
  let main_v26 : IVec S2048 1 := cmpf .olt main_v24 main_v25
  let main_c_9 : IVec S_ 1 := constantI S_ 1 1#1
  let main_v27 : IVec S_ 1 := (fun x v => Host.reduce IntOp.andi x v reducesTo_S2048_S_d0 h_S_) main_v26 main_c_9
  let main_v28 : IVec S_ 1 := andi main_v23 main_v27
  let main_v29 : FVec F S512x2560 .f32 := Host.absf main_arg6
  let main_cst_10 : FVec F S_ .f32 := constant S_ .f32 0x7F800000#32
  let main_v30 : FVec F S512x2560 .f32 := broadcastInDim S512x2560 ![] bcast_S_S512x2560 main_cst_10
  let main_v31 : IVec S512x2560 1 := cmpf .olt main_v29 main_v30
  let main_c_11 : IVec S_ 1 := constantI S_ 1 1#1
  let main_v32 : IVec S_ 1 := (fun x v => Host.reduce IntOp.andi x v reducesTo_S512x2560_S_d0_1 h_S_) main_v31 main_c_11
  let main_v33 : IVec S_ 1 := andi main_v28 main_v32
  fn_part2 (F := F) main_arg7 main_v33

def fn {F : FTy → Type} [FloatOps F] (main_arg0 : FVec F S4096x512 .f32) (main_arg1 : FVec F S4096x2048 .f32) (main_arg2 : FVec F S4x2560x2560 .f32) (main_arg3 : FVec F S4x2560 .f32) (main_arg4 : FVec F S2048x2560 .f32) (main_arg5 : FVec F S2048 .f32) (main_arg6 : FVec F S512x2560 .f32) (main_arg7 : FVec F S512 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S4x2560x2560 .f32 := Host.absf main_arg2
  let main_cst_2 : FVec F S_ .f32 := constant S_ .f32 0x7F800000#32
  let main_v10 : FVec F S4x2560x2560 .f32 := broadcastInDim S4x2560x2560 ![] bcast_S_S4x2560x2560 main_cst_2
  let main_v11 : IVec S4x2560x2560 1 := cmpf .olt main_v9 main_v10
  let main_c_3 : IVec S_ 1 := constantI S_ 1 1#1
  let main_v12 : IVec S_ 1 := (fun x v => Host.reduce IntOp.andi x v reducesTo_S4x2560x2560_S_d0_1_2 h_S_) main_v11 main_c_3
  let main_v13 : IVec S_ 1 := andi main_v8 main_v12
  let main_v14 : FVec F S4x2560 .f32 := Host.absf main_arg3
  let main_cst_4 : FVec F S_ .f32 := constant S_ .f32 0x7F800000#32
  let main_v15 : FVec F S4x2560 .f32 := broadcastInDim S4x2560 ![] bcast_S_S4x2560 main_cst_4
  let main_v16 : IVec S4x2560 1 := cmpf .olt main_v14 main_v15
  fn_part1 (F := F) main_arg4 main_arg5 main_arg6 main_arg7 main_v13 main_v16
-- ==== Kernel.lean ====
abbrev S4096x512 : Shape := ⟨2, ![4096, 512]⟩
abbrev S4096x2048 : Shape := ⟨2, ![4096, 2048]⟩
abbrev S4x2560x2560 : Shape := ⟨3, ![4, 2560, 2560]⟩
abbrev S4x2560 : Shape := ⟨2, ![4, 2560]⟩
abbrev S2048x2560 : Shape := ⟨2, ![2048, 2560]⟩
abbrev S2048 : Shape := ⟨1, ![2048]⟩
abbrev S512x2560 : Shape := ⟨2, ![512, 2560]⟩
abbrev S512 : Shape := ⟨1, ![512]⟩
abbrev S4096x2560 : Shape := ⟨2, ![4096, 2560]⟩
abbrev S1x2560x2560 : Shape := ⟨3, ![1, 2560, 2560]⟩
abbrev S2560x2560 : Shape := ⟨2, ![2560, 2560]⟩
abbrev S1x2560 : Shape := ⟨2, ![1, 2560]⟩
abbrev S2560 : Shape := ⟨1, ![2560]⟩
abbrev S512x2048 : Shape := ⟨2, ![512, 2048]⟩
abbrev S1x2048 : Shape := ⟨2, ![1, 2048]⟩
abbrev S512x512 : Shape := ⟨2, ![512, 512]⟩
abbrev S1x512 : Shape := ⟨2, ![1, 512]⟩

abbrev nBuf : Space → Nat
  | .hbm => 39
  | .vmem => 36
  | .smem => 0
  | _ => 0

abbrev bufTy : (tb : Table) → Fin (tcTables nBuf tb) → BufTy
  | .hbm, ⟨0, _⟩ => ⟨S4096x512, .f32⟩
  | .hbm, ⟨1, _⟩ => ⟨S4096x2048, .f32⟩
  | .hbm, ⟨2, _⟩ => ⟨S4x2560x2560, .f32⟩
  | .hbm, ⟨3, _⟩ => ⟨S4x2560, .f32⟩
  | .hbm, ⟨4, _⟩ => ⟨S2048x2560, .f32⟩
  | .hbm, ⟨5, _⟩ => ⟨S2048, .f32⟩
  | .hbm, ⟨6, _⟩ => ⟨S512x2560, .f32⟩
  | .hbm, ⟨7, _⟩ => ⟨S512, .f32⟩
  | .hbm, ⟨8, _⟩ => ⟨S4096x2560, .f32⟩
  | .hbm, ⟨9, _⟩ => ⟨S4096x2560, .bf16⟩
  | .hbm, ⟨10, _⟩ => ⟨S4x2560x2560, .bf16⟩
  | .hbm, ⟨11, _⟩ => ⟨S1x2560x2560, .bf16⟩
  | .hbm, ⟨12, _⟩ => ⟨S2560x2560, .bf16⟩
  | .hbm, ⟨13, _⟩ => ⟨S1x2560, .f32⟩
  | .hbm, ⟨14, _⟩ => ⟨S2560, .f32⟩
  | .hbm, ⟨15, _⟩ => ⟨S4096x2560, .f32⟩
  | .hbm, ⟨16, _⟩ => ⟨S4096x2560, .bf16⟩
  | .hbm, ⟨17, _⟩ => ⟨S1x2560x2560, .bf16⟩
  | .hbm, ⟨18, _⟩ => ⟨S2560x2560, .bf16⟩
  | .hbm, ⟨19, _⟩ => ⟨S1x2560, .f32⟩
  | .hbm, ⟨20, _⟩ => ⟨S2560, .f32⟩
  | .hbm, ⟨21, _⟩ => ⟨S4096x2560, .f32⟩
  | .hbm, ⟨22, _⟩ => ⟨S4096x2560, .bf16⟩
  | .hbm, ⟨23, _⟩ => ⟨S1x2560x2560, .bf16⟩
  | .hbm, ⟨24, _⟩ => ⟨S2560x2560, .bf16⟩
  | .hbm, ⟨25, _⟩ => ⟨S1x2560, .f32⟩
  | .hbm, ⟨26, _⟩ => ⟨S2560, .f32⟩
  | .hbm, ⟨27, _⟩ => ⟨S4096x2560, .f32⟩
  | .hbm, ⟨28, _⟩ => ⟨S4096x2560, .bf16⟩
  | .hbm, ⟨29, _⟩ => ⟨S1x2560x2560, .bf16⟩
  | .hbm, ⟨30, _⟩ => ⟨S2560x2560, .bf16⟩
  | .hbm, ⟨31, _⟩ => ⟨S1x2560, .f32⟩
  | .hbm, ⟨32, _⟩ => ⟨S2560, .f32⟩
  | .hbm, ⟨33, _⟩ => ⟨S4096x2560, .f32⟩
  | .hbm, ⟨34, _⟩ => ⟨S4096x2560, .bf16⟩
  | .hbm, ⟨35, _⟩ => ⟨S2048x2560, .bf16⟩
  | .hbm, ⟨36, _⟩ => ⟨S4096x2048, .f32⟩
  | .hbm, ⟨37, _⟩ => ⟨S512x2560, .bf16⟩
  | .hbm, ⟨38, _⟩ => ⟨S4096x512, .f32⟩
  | .local _ .vmem, ⟨0, _⟩ => ⟨S512x2560, .bf16⟩
  | .local _ .vmem, ⟨1, _⟩ => ⟨S512x2560, .bf16⟩
  | .local _ .vmem, ⟨2, _⟩ => ⟨S2560x2560, .bf16⟩
  | .local _ .vmem, ⟨3, _⟩ => ⟨S2560, .f32⟩
  | .local _ .vmem, ⟨4, _⟩ => ⟨S512x2560, .f32⟩
  | .local _ .vmem, ⟨5, _⟩ => ⟨S512x2560, .f32⟩
  | .local _ .vmem, ⟨6, _⟩ => ⟨S512x2560, .bf16⟩
  | .local _ .vmem, ⟨7, _⟩ => ⟨S512x2560, .bf16⟩
  | .local _ .vmem, ⟨8, _⟩ => ⟨S2560x2560, .bf16⟩
  | .local _ .vmem, ⟨9, _⟩ => ⟨S2560, .f32⟩
  | .local _ .vmem, ⟨10, _⟩ => ⟨S512x2560, .f32⟩
  | .local _ .vmem, ⟨11, _⟩ => ⟨S512x2560, .f32⟩
  | .local _ .vmem, ⟨12, _⟩ => ⟨S512x2560, .bf16⟩
  | .local _ .vmem, ⟨13, _⟩ => ⟨S512x2560, .bf16⟩
  | .local _ .vmem, ⟨14, _⟩ => ⟨S2560x2560, .bf16⟩
  | .local _ .vmem, ⟨15, _⟩ => ⟨S2560, .f32⟩
  | .local _ .vmem, ⟨16, _⟩ => ⟨S512x2560, .f32⟩
  | .local _ .vmem, ⟨17, _⟩ => ⟨S512x2560, .f32⟩
  | .local _ .vmem, ⟨18, _⟩ => ⟨S512x2560, .bf16⟩
  | .local _ .vmem, ⟨19, _⟩ => ⟨S512x2560, .bf16⟩
  | .local _ .vmem, ⟨20, _⟩ => ⟨S2560x2560, .bf16⟩
  | .local _ .vmem, ⟨21, _⟩ => ⟨S2560, .f32⟩
  | .local _ .vmem, ⟨22, _⟩ => ⟨S512x2560, .f32⟩
  | .local _ .vmem, ⟨23, _⟩ => ⟨S512x2560, .f32⟩
  | .local _ .vmem, ⟨24, _⟩ => ⟨S512x2560, .bf16⟩
  | .local _ .vmem, ⟨25, _⟩ => ⟨S512x2560, .bf16⟩
  | .local _ .vmem, ⟨26, _⟩ => ⟨S2048x2560, .bf16⟩
  | .local _ .vmem, ⟨27, _⟩ => ⟨S2048, .f32⟩
  | .local _ .vmem, ⟨28, _⟩ => ⟨S512x2048, .f32⟩
  | .local _ .vmem, ⟨29, _⟩ => ⟨S512x2048, .f32⟩
  | .local _ .vmem, ⟨30, _⟩ => ⟨S512x2560, .bf16⟩
  | .local _ .vmem, ⟨31, _⟩ => ⟨S512x2560, .bf16⟩
  | .local _ .vmem, ⟨32, _⟩ => ⟨S512x2560, .bf16⟩
  | .local _ .vmem, ⟨33, _⟩ => ⟨S512, .f32⟩
  | .local _ .vmem, ⟨34, _⟩ => ⟨S512x512, .f32⟩
  | .local _ .vmem, ⟨35, _⟩ => ⟨S512x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg3_0 : Ref sig .tc := ⟨.vmem, 28, rfl⟩
abbrev cc4_stg3_1 : Ref sig .tc := ⟨.vmem, 29, rfl⟩
abbrev cc5_stg0_0 : Ref sig .tc := ⟨.vmem, 30, rfl⟩
abbrev cc5_stg0_1 : Ref sig .tc := ⟨.vmem, 31, rfl⟩
abbrev cc5_stg1_0 : Ref sig .tc := ⟨.vmem, 32, rfl⟩
abbrev cc5_stg2_0 : Ref sig .tc := ⟨.vmem, 33, rfl⟩
abbrev cc5_stg3_0 : Ref sig .tc := ⟨.vmem, 34, rfl⟩
abbrev cc5_stg3_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem3_0 : DmaSem sig := 28
abbrev cc4_sem3_1 : DmaSem sig := 29
abbrev cc5_sem0_0 : DmaSem sig := 30
abbrev cc5_sem0_1 : DmaSem sig := 31
abbrev cc5_sem1_0 : DmaSem sig := 32
abbrev cc5_sem2_0 : DmaSem sig := 33
abbrev cc5_sem3_0 : DmaSem sig := 34
abbrev cc5_sem3_1 : DmaSem sig := 35

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2560x2560 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2560 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2560 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x2560 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2560x2560 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S2560 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x2560 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x2560 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S2560x2560 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S2560 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S512x2560 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S512x2560 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S2560x2560 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S2560 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S512x2560 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![8], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S512x2560 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S2048x2560 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S2048 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S512x2048 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![8], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S512x2560 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S512x2560 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S512 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S512x512 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

class Facts₀ : Prop where
  concatenates_S4096x512_S4096x2048_S4096x2560_d1 : Shape.Concatenates [S4096x512, S4096x2048] S4096x2560 1
  bitsLt_bf16_f32 : FTy.bits .bf16 < FTy.bits .f32
  slices_S4x2560x2560_S1x2560x2560_0_0_0 : S4x2560x2560.Slices ![0, 0, 0] S1x2560x2560
  shapeCasts_S1x2560x2560_S2560x2560 : S1x2560x2560.ShapeCasts S2560x2560
  slices_S4x2560_S1x2560_0_0 : S4x2560.Slices ![0, 0] S1x2560
  shapeCasts_S1x2560_S2560 : S1x2560.ShapeCasts S2560
  inb_S512x2560_S512x2560_0_0 : ∀ a, (![0, 0] : Fin 2 → Nat) a + S512x2560.size a ≤ S512x2560.size a
  h_S512x2560 : 0 < S512x2560.numel
  shapeCasts_S512x2560_S512x2560 : S512x2560.ShapeCasts S512x2560
  inb_S2560x2560_S2560x2560_0_0 : ∀ a, (![0, 0] : Fin 2 → Nat) a + S2560x2560.size a ≤ S2560x2560.size a
  h_S2560x2560 : 0 < S2560x2560.numel
  shapeCasts_S2560x2560_S2560x2560 : S2560x2560.ShapeCasts S2560x2560
  inb_S2560_S2560_0 : ∀ a, (![0] : Fin 1 → Nat) a + S2560.size a ≤ S2560.size a
  h_S2560 : 0 < S2560.numel
  shapeCasts_S2560_S2560 : S2560.ShapeCasts S2560
  shapeCasts_S2560_S1x2560 : S2560.ShapeCasts S1x2560
  broadcasts_S1x2560_S512x2560 : S1x2560.Broadcasts S512x2560
  slices_S4x2560x2560_S1x2560x2560_1_0_0 : S4x2560x2560.Slices ![1, 0, 0] S1x2560x2560
  slices_S4x2560_S1x2560_1_0 : S4x2560.Slices ![1, 0] S1x2560
  slices_S4x2560x2560_S1x2560x2560_2_0_0 : S4x2560x2560.Slices ![2, 0, 0] S1x2560x2560
  slices_S4x2560_S1x2560_2_0 : S4x2560.Slices ![2, 0] S1x2560
  slices_S4x2560x2560_S1x2560x2560_3_0_0 : S4x2560x2560.Slices ![3, 0, 0] S1x2560x2560
  slices_S4x2560_S1x2560_3_0 : S4x2560.Slices ![3, 0] S1x2560
  inb_S2048x2560_S2048x2560_0_0 : ∀ a, (![0, 0] : Fin 2 → Nat) a + S2048x2560.size a ≤ S2048x2560.size a
  h_S2048x2560 : 0 < S2048x2560.numel
  shapeCasts_S2048x2560_S2048x2560 : S2048x2560.ShapeCasts S2048x2560
  inb_S2048_S2048_0 : ∀ a, (![0] : Fin 1 → Nat) a + S2048.size a ≤ S2048.size a
  h_S2048 : 0 < S2048.numel
  shapeCasts_S2048_S1x2048 : S2048.ShapeCasts S1x2048
  broadcasts_S1x2048_S512x2048 : S1x2048.Broadcasts S512x2048
  inb_S512x2048_S512x2048_0_0 : ∀ a, (![0, 0] : Fin 2 → Nat) a + S512x2048.size a ≤ S512x2048.size a
  h_S512x2048 : 0 < S512x2048.numel
  inb_S512_S512_0 : ∀ a, (![0] : Fin 1 → Nat) a + S512.size a ≤ S512.size a
  h_S512 : 0 < S512.numel
  shapeCasts_S512_S1x512 : S512.ShapeCasts S1x512
  broadcasts_S1x512_S512x512 : S1x512.Broadcasts S512x512
  inb_S512x512_S512x512_0_0 : ∀ a, (![0, 0] : Fin 2 → Nat) a + S512x512.size a ≤ S512x512.size a
  h_S512x512 : 0 < S512x512.numel
  dot_S512x2560_S2560x2560_S512x2560_1_1_0_0_n_n_wf : DotDims.WF S512x2560 S2560x2560 S512x2560 [1] [1] [0] [0] [] []
  dot_S512x2560_S2048x2560_S512x2048_1_1_0_0_n_n_wf : DotDims.WF S512x2560 S2048x2560 S512x2048 [1] [1] [0] [0] [] []
  dot_S512x2560_S512x2560_S512x512_1_1_0_0_n_n_wf : DotDims.WF S512x2560 S512x2560 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2560.size a ≤ S4096x2560.size a
  hwx0_0 : ∀ i : grid0.Coords, EltTy.bits .bf16 = 32 ∨ (Rect.block (s := S4096x2560) S512x2560.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2560x2560.size a ≤ S2560x2560.size a
  hwx0_1 : ∀ i : grid0.Coords, EltTy.bits .bf16 = 32 ∨ (Rect.block (s := S2560x2560) S2560x2560.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2560.size a ≤ S2560.size a
  hwx0_2 : ∀ i : grid0.Coords, EltTy.bits .f32 = 32 ∨ (Rect.block (s := S2560) S2560.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2560.size a ≤ S4096x2560.size a
  hwx0_3 : ∀ i : grid0.Coords, EltTy.bits .f32 = 32 ∨ (Rect.block (s := S4096x2560) S512x2560.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x2560.size a ≤ S4096x2560.size a
  hwx1_0 : ∀ i : grid1.Coords, EltTy.bits .bf16 = 32 ∨ (Rect.block (s := S4096x2560) S512x2560.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2560x2560.size a ≤ S2560x2560.size a
  hwx1_1 : ∀ i : grid1.Coords, EltTy.bits .bf16 = 32 ∨ (Rect.block (s := S2560x2560) S2560x2560.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S2560.size a ≤ S2560.size a
  hwx1_2 : ∀ i : grid1.Coords, EltTy.bits .f32 = 32 ∨ (Rect.block (s := S2560) S2560.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x2560.size a ≤ S4096x2560.size a
  hwx1_3 : ∀ i : grid1.Coords, EltTy.bits .f32 = 32 ∨ (Rect.block (s := S4096x2560) S512x2560.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x2560.size a ≤ S4096x2560.size a
  hwx2_0 : ∀ i : grid2.Coords, EltTy.bits .bf16 = 32 ∨ (Rect.block (s := S4096x2560) S512x2560.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S2560x2560.size a ≤ S2560x2560.size a
  hwx2_1 : ∀ i : grid2.Coords, EltTy.bits .bf16 = 32 ∨ (Rect.block (s := S2560x2560) S2560x2560.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S2560.size a ≤ S2560.size a
  hwx2_2 : ∀ i : grid2.Coords, EltTy.bits .f32 = 32 ∨ (Rect.block (s := S2560) S2560.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x2560.size a ≤ S4096x2560.size a
  hwx2_3 : ∀ i : grid2.Coords, EltTy.bits .f32 = 32 ∨ (Rect.block (s := S4096x2560) S512x2560.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S512x2560.size a ≤ S4096x2560.size a
  hwx3_0 : ∀ i : grid3.Coords, EltTy.bits .bf16 = 32 ∨ (Rect.block (s := S4096x2560) S512x2560.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S2560x2560.size a ≤ S2560x2560.size a
  hwx3_1 : ∀ i : grid3.Coords, EltTy.bits .bf16 = 32 ∨ (Rect.block (s := S2560x2560) S2560x2560.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S2560.size a ≤ S2560.size a
  hwx3_2 : ∀ i : grid3.Coords, EltTy.bits .f32 = 32 ∨ (Rect.block (s := S2560) S2560.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S512x2560.size a ≤ S4096x2560.size a
  hwx3_3 : ∀ i : grid3.Coords, EltTy.bits .f32 = 32 ∨ (Rect.block (s := S4096x2560) S512x2560.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S512x2560.size a ≤ S4096x2560.size a
  hwx4_0 : ∀ i : grid4.Coords, EltTy.bits .bf16 = 32 ∨ (Rect.block (s := S4096x2560) S512x2560.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S2048x2560.size a ≤ S2048x2560.size a
  hwx4_1 : ∀ i : grid4.Coords, EltTy.bits .bf16 = 32 ∨ (Rect.block (s := S2048x2560) S2048x2560.size (cc4_transform_1 i) (hinb4_1 i)).WholeWords (EltTy.packing .bf16)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S2048.size a ≤ S2048.size a
  hwx4_2 : ∀ i : grid4.Coords, EltTy.bits .f32 = 32 ∨ (Rect.block (s := S2048) S2048.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S512x2048.size a ≤ S4096x2048.size a
  hwx4_3 : ∀ i : grid4.Coords, EltTy.bits .f32 = 32 ∨ (Rect.block (s := S4096x2048) S512x2048.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S512x2560.size a ≤ S4096x2560.size a
  hwx5_0 : ∀ i : grid5.Coords, EltTy.bits .bf16 = 32 ∨ (Rect.block (s := S4096x2560) S512x2560.size (cc5_transform_0 i) (hinb5_0 i)).WholeWords (EltTy.packing .bf16)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S512x2560.size a ≤ S512x2560.size a
  hwx5_1 : ∀ i : grid5.Coords, EltTy.bits .bf16 = 32 ∨ (Rect.block (s := S512x2560) S512x2560.size (cc5_transform_1 i) (hinb5_1 i)).WholeWords (EltTy.packing .bf16)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S512.size a ≤ S512.size a
  hwx5_2 : ∀ i : grid5.Coords, EltTy.bits .f32 = 32 ∨ (Rect.block (s := S512) S512.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S512x512.size a ≤ S4096x512.size a
  hwx5_3 : ∀ i : grid5.Coords, EltTy.bits .f32 = 32 ∨ (Rect.block (s := S4096x512) S512x512.size (cc5_transform_3 i) (hinb5_3 i)).WholeWords (EltTy.packing .f32)

variable [Facts₀]

def dot_S512x2560_S2560x2560_S512x2560_1_1_0_0_n_n : DotDims S512x2560 S2560x2560 S512x2560 where
  lhsContracting := [1]
  rhsContracting := [1]
  lhsNonContracting := [0]
  rhsNonContracting := [0]
  lhsBatch := []
  rhsBatch := []
  wf := dot_S512x2560_S2560x2560_S512x2560_1_1_0_0_n_n_wf
def dot_S512x2560_S2048x2560_S512x2048_1_1_0_0_n_n : DotDims S512x2560 S2048x2560 S512x2048 where
  lhsContracting := [1]
  rhsContracting := [1]
  lhsNonContracting := [0]
  rhsNonContracting := [0]
  lhsBatch := []
  rhsBatch := []
  wf := dot_S512x2560_S2048x2560_S512x2048_1_1_0_0_n_n_wf
def dot_S512x2560_S512x2560_S512x512_1_1_0_0_n_n : DotDims S512x2560 S512x2560 S512x512 where
  lhsContracting := [1]
  rhsContracting := [1]
  lhsNonContracting := [0]
  rhsNonContracting := [0]
  lhsBatch := []
  rhsBatch := []
  wf := dot_S512x2560_S512x2560_S512x512_1_1_0_0_n_n_wf

abbrev win0_0 : Pipeline.Window sig grid0 :=
  Pipeline.Window.ofSpec (Memref.whole main_v1) S512x2560.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S2560x2560.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S2560.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S512x2560.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v8) S512x2560.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10) S2560x2560.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v12) S2560.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v13) S512x2560.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v14) S512x2560.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v16) S2560x2560.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v18) S2560.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v19) S512x2560.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v20) S512x2560.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v22) S2560x2560.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v24) S2560.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v25) S512x2560.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v26) S512x2560.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v27) S2048x2560.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg5) S2048.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v28) S512x2048.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v26) S512x2560.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v29) S512x2560.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_arg7) S512.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v30) S512x512.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== ReferenceIdeal.lean ====
abbrev S4096x512 : Shape := ⟨2, ![4096, 512]⟩
abbrev S4096x2048 : Shape := ⟨2, ![4096, 2048]⟩
abbrev S4x2560x2560 : Shape := ⟨3, ![4, 2560, 2560]⟩
abbrev S4x2560 : Shape := ⟨2, ![4, 2560]⟩
abbrev S2048x2560 : Shape := ⟨2, ![2048, 2560]⟩
abbrev S2048 : Shape := ⟨1, ![2048]⟩
abbrev S512x2560 : Shape := ⟨2, ![512, 2560]⟩
abbrev S512 : Shape := ⟨1, ![512]⟩
abbrev S4096x2560 : Shape := ⟨2, ![4096, 2560]⟩
abbrev S1x2560x2560 : Shape := ⟨3, ![1, 2560, 2560]⟩
abbrev S2560x2560 : Shape := ⟨2, ![2560, 2560]⟩
abbrev S1x2560 : Shape := ⟨2, ![1, 2560]⟩
abbrev S2560 : Shape := ⟨1, ![2560]⟩
abbrev S_ : Shape := ⟨0, ![]⟩
abbrev S1x2048 : Shape := ⟨2, ![1, 2048]⟩
abbrev S1x512 : Shape := ⟨2, ![1, 512]⟩

abbrev nBuf : Space → Nat
  | .hbm => 62
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x2048, .f32⟩
  | .hbm, ⟨2, _⟩ => ⟨S4x2560x2560, .f32⟩
  | .hbm, ⟨3, _⟩ => ⟨S4x2560, .f32⟩
  | .hbm, ⟨4, _⟩ => ⟨S2048x2560, .f32⟩
  | .hbm, ⟨5, _⟩ => ⟨S2048, .f32⟩
  | .hbm, ⟨6, _⟩ => ⟨S512x2560, .f32⟩
  | .hbm, ⟨7, _⟩ => ⟨S512, .f32⟩
  | .hbm, ⟨8, _⟩ => ⟨S4096x2560, .f32⟩
  | .hbm, ⟨9, _⟩ => ⟨S1x2560x2560, .f32⟩
  | .hbm, ⟨10, _⟩ => ⟨S2560x2560, .f32⟩
  | .hbm, ⟨11, _⟩ => ⟨S4096x2560, .f32⟩
  | .hbm, ⟨12, _⟩ => ⟨S1x2560, .f32⟩
  | .hbm, ⟨13, _⟩ => ⟨S2560, .f32⟩
  | .hbm, ⟨14, _⟩ => ⟨S1x2560, .f32⟩
  | .hbm, ⟨15, _⟩ => ⟨S4096x2560, .f32⟩
  | .hbm, ⟨16, _⟩ => ⟨S4096x2560, .f32⟩
  | .hbm, ⟨17, _⟩ => ⟨S_, .f32⟩
  | .hbm, ⟨18, _⟩ => ⟨S4096x2560, .f32⟩
  | .hbm, ⟨19, _⟩ => ⟨S4096x2560, .f32⟩
  | .hbm, ⟨20, _⟩ => ⟨S1x2560x2560, .f32⟩
  | .hbm, ⟨21, _⟩ => ⟨S2560x2560, .f32⟩
  | .hbm, ⟨22, _⟩ => ⟨S4096x2560, .f32⟩
  | .hbm, ⟨23, _⟩ => ⟨S1x2560, .f32⟩
  | .hbm, ⟨24, _⟩ => ⟨S2560, .f32⟩
  | .hbm, ⟨25, _⟩ => ⟨S1x2560, .f32⟩
  | .hbm, ⟨26, _⟩ => ⟨S4096x2560, .f32⟩
  | .hbm, ⟨27, _⟩ => ⟨S4096x2560, .f32⟩
  | .hbm, ⟨28, _⟩ => ⟨S_, .f32⟩
  | .hbm, ⟨29, _⟩ => ⟨S4096x2560, .f32⟩
  | .hbm, ⟨30, _⟩ => ⟨S4096x2560, .f32⟩
  | .hbm, ⟨31, _⟩ => ⟨S1x2560x2560, .f32⟩
  | .hbm, ⟨32, _⟩ => ⟨S2560x2560, .f32⟩
  | .hbm, ⟨33, _⟩ => ⟨S4096x2560, .f32⟩
  | .hbm, ⟨34, _⟩ => ⟨S1x2560, .f32⟩
  | .hbm, ⟨35, _⟩ => ⟨S2560, .f32⟩
  | .hbm, ⟨36, _⟩ => ⟨S1x2560, .f32⟩
  | .hbm, ⟨37, _⟩ => ⟨S4096x2560, .f32⟩
  | .hbm, ⟨38, _⟩ => ⟨S4096x2560, .f32⟩
  | .hbm, ⟨39, _⟩ => ⟨S_, .f32⟩
  | .hbm, ⟨40, _⟩ => ⟨S4096x2560, .f32⟩
  | .hbm, ⟨41, _⟩ => ⟨S4096x2560, .f32⟩
  | .hbm, ⟨42, _⟩ => ⟨S1x2560x2560, .f32⟩
  | .hbm, ⟨43, _⟩ => ⟨S2560x2560, .f32⟩
  | .hbm, ⟨44, _⟩ => ⟨S4096x2560, .f32⟩
  | .hbm, ⟨45, _⟩ => ⟨S1x2560, .f32⟩
  | .hbm, ⟨46, _⟩ => ⟨S2560, .f32⟩
  | .hbm, ⟨47, _⟩ => ⟨S1x2560, .f32⟩
  | .hbm, ⟨48, _⟩ => ⟨S4096x2560, .f32⟩
  | .hbm, ⟨49, _⟩ => ⟨S4096x2560, .f32⟩
  | .hbm, ⟨50, _⟩ => ⟨S_, .f32⟩
  | .hbm, ⟨51, _⟩ => ⟨S4096x2560, .f32⟩
  | .hbm, ⟨52, _⟩ => ⟨S4096x2560, .f32⟩
  | .hbm, ⟨53, _⟩ => ⟨S4096x2048, .f32⟩
  | .hbm, ⟨54, _⟩ => ⟨S1x2048, .f32⟩
  | .hbm, ⟨55, _⟩ => ⟨S4096x2048, .f32⟩
  | .hbm, ⟨56, _⟩ => ⟨S4096x2048, .f32⟩
  | .hbm, ⟨57, _⟩ => ⟨S4096x2048, .f32⟩
  | .hbm, ⟨58, _⟩ => ⟨S4096x512, .f32⟩
  | .hbm, ⟨59, _⟩ => ⟨S1x512, .f32⟩
  | .hbm, ⟨60, _⟩ => ⟨S4096x512, .f32⟩
  | .hbm, ⟨61, _⟩ => ⟨S4096x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_call0_cst : Ref sig .tc := ⟨.hbm, 17, rfl⟩
abbrev main_call0_v0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_call1_cst : Ref sig .tc := ⟨.hbm, 28, rfl⟩
abbrev main_call1_v0 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_call2_cst : Ref sig .tc := ⟨.hbm, 39, rfl⟩
abbrev main_call2_v0 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_call3_cst : Ref sig .tc := ⟨.hbm, 50, rfl⟩
abbrev main_call3_v0 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩

abbrev nD : Nat := 1
abbrev τ : Topo := Topo.v7x

variable {F : FTy → Type} [FloatOps F]

class Facts₀ : Prop where
  concatenates_S4096x512_S4096x2048_S4096x2560_d1 : Shape.Concatenates [S4096x512, S4096x2048] S4096x2560 1
  slices_S4x2560x2560_S1x2560x2560_0_0_0 : S4x2560x2560.Slices ![0, 0, 0] S1x2560x2560
  shapeCasts_S1x2560x2560_S2560x2560 : S1x2560x2560.ShapeCasts S2560x2560
  slices_S4x2560_S1x2560_0_0 : S4x2560.Slices ![0, 0] S1x2560
  shapeCasts_S1x2560_S2560 : S1x2560.ShapeCasts S2560
  bcast_S2560_S1x2560_1 : S2560.BroadcastsInDim S1x2560 (![1] : Fin 1 → Fin S1x2560.rank)
  bcast_S1x2560_S4096x2560_0_1 : S1x2560.BroadcastsInDim S4096x2560 (![0, 1] : Fin 2 → Fin S4096x2560.rank)
  bcast_S_S4096x2560 : S_.BroadcastsInDim S4096x2560 (![] : Fin 0 → Fin S4096x2560.rank)
  slices_S4x2560x2560_S1x2560x2560_1_0_0 : S4x2560x2560.Slices ![1, 0, 0] S1x2560x2560
  slices_S4x2560_S1x2560_1_0 : S4x2560.Slices ![1, 0] S1x2560
  slices_S4x2560x2560_S1x2560x2560_2_0_0 : S4x2560x2560.Slices ![2, 0, 0] S1x2560x2560
  slices_S4x2560_S1x2560_2_0 : S4x2560.Slices ![2, 0] S1x2560
  slices_S4x2560x2560_S1x2560x2560_3_0_0 : S4x2560x2560.Slices ![3, 0, 0] S1x2560x2560
  slices_S4x2560_S1x2560_3_0 : S4x2560.Slices ![3, 0] S1x2560
  bcast_S2048_S1x2048_1 : S2048.BroadcastsInDim S1x2048 (![1] : Fin 1 → Fin S1x2048.rank)
  bcast_S1x2048_S4096x2048_0_1 : S1x2048.BroadcastsInDim S4096x2048 (![0, 1] : Fin 2 → Fin S4096x2048.rank)
  bcast_S512_S1x512_1 : S512.BroadcastsInDim S1x512 (![1] : Fin 1 → Fin S1x512.rank)
  bcast_S1x512_S4096x512_0_1 : S1x512.BroadcastsInDim S4096x512 (![0, 1] : Fin 2 → Fin S4096x512.rank)
  dot_S4096x2560_S2560x2560_S4096x2560_1_1_0_0_n_n_wf : DotDims.WF S4096x2560 S2560x2560 S4096x2560 [1] [1] [0] [0] [] []
  dot_S4096x2560_S2048x2560_S4096x2048_1_1_0_0_n_n_wf : DotDims.WF S4096x2560 S2048x2560 S4096x2048 [1] [1] [0] [0] [] []
  dot_S4096x2560_S512x2560_S4096x512_1_1_0_0_n_n_wf : DotDims.WF S4096x2560 S512x2560 S4096x512 [1] [1] [0] [0] [] []

variable [Facts₀]

def dot_S4096x2560_S2560x2560_S4096x2560_1_1_0_0_n_n : DotDims S4096x2560 S2560x2560 S4096x2560 where
  lhsContracting := [1]
  rhsContracting := [1]
  lhsNonContracting := [0]
  rhsNonContracting := [0]
  lhsBatch := []
  rhsBatch := []
  wf := dot_S4096x2560_S2560x2560_S4096x2560_1_1_0_0_n_n_wf
def dot_S4096x2560_S2048x2560_S4096x2048_1_1_0_0_n_n : DotDims S4096x2560 S2048x2560 S4096x2048 where
  lhsContracting := [1]
  rhsContracting := [1]
  lhsNonContracting := [0]
  rhsNonContracting := [0]
  lhsBatch := []
  rhsBatch := []
  wf := dot_S4096x2560_S2048x2560_S4096x2048_1_1_0_0_n_n_wf
def dot_S4096x2560_S512x2560_S4096x512_1_1_0_0_n_n : DotDims S4096x2560 S512x2560 S4096x512 where
  lhsContracting := [1]
  rhsContracting := [1]
  lhsNonContracting := [0]
  rhsNonContracting := [0]
  lhsBatch := []
  rhsBatch := []
  wf := dot_S4096x2560_S512x2560_S4096x512_1_1_0_0_n_n_wf

class Facts : Prop extends Facts₀ where

variable [Facts]
-- ==== Proof.Spec.lean ====
/-
  The mathematics both programs compute, over the extended reals.

  An affine layer takes a matrix `x` of `M` rows of length `K`, a weight matrix `w` of `N` rows of length `K` and a bias
  `b` of length `N`, and returns the `M × N` matrix whose entry `(r, o)` is `(∑ k, x r k * w o k) + b o`: every row of `x`
  against every row of `w` (the contraction runs over the LAST axis of both), plus the bias of the output column.
  The network is four such layers with the positive part `max · 0` after each, all of width 2560 and with the weights
  and biases of layer `l` the `l`-th slices of two stacked parameter arrays, followed by two heads on the same trunk:
  one affine layer of width 2048 under `tanh` and one plain affine layer of width 512.
-/
import Idealize.ShloMosaic.PureOps.Ideal
import Idealize.ShloMosaic.Lib.ValueIdx

noncomputable section

namespace Cert.Mlp

open Idealize.ShloMosaic Idealize.ShloMosaic.ValueIdx

/-- An `a × b` matrix of extended reals, indexed by the two coordinates. -/
abbrev Mat (a b : ℕ) : Type := (⟨2, ![a, b]⟩ : Shape).Idx → EReal
/-- A vector of length `a`. -/
abbrev Vc (a : ℕ) : Type := (⟨1, ![a]⟩ : Shape).Idx → EReal
/-- A stack of `l` matrices of size `a × b`. -/
abbrev Stack (l a b : ℕ) : Type := (⟨3, ![l, a, b]⟩ : Shape).Idx → EReal

/-- The affine map: entry `(r, o)` is row `r` of `x` against row `o` of `w`, plus `b o`. -/
def affine {M N K : ℕ} (x : Mat M K) (w : Mat N K) (b : Vc N) : Mat M N :=
  fun i => (∑ k : Fin K, x (ix2 (i 0) k) * w (ix2 (i 1) k)) + b (ix1 (i 1))

/-- The positive part, against the zero of the 32-bit format (kept as its word: both programs spell it so). -/
def relu (y : EReal) : EReal := max y (Ideal.ofBits .f32 0x00000000#32)

/-- An affine layer followed by the positive part. -/
def reluLayer {M N K : ℕ} (x : Mat M K) (w : Mat N K) (b : Vc N) : Mat M N := fun i => relu (affine x w b i)

/-- An affine layer followed by the hyperbolic tangent (extended to the infinities by its limits). -/
def tanhLayer {M N K : ℕ} (x : Mat M K) (w : Mat N K) (b : Vc N) : Mat M N := fun i => Ideal.tanh (affine x w b i)

/-- Layer `l`'s weight matrix out of the stacked weights. -/
def wAt {L N K : ℕ} (W : Stack L N K) (l : Fin L) : Mat N K := fun i => W (ix3 l (i 0) (i 1))
/-- Layer `l`'s bias out of the stacked biases. -/
def bAt {L N : ℕ} (B : Mat L N) (l : Fin L) : Vc N := fun i => B (ix2 l (i 0))

/-- The trunk: four positive-part layers of width 2560, layer `l` with the `l`-th slices of `W` and `B`. -/
def trunk (X : Mat 4096 2560) (W : Stack 4 2560 2560) (B : Mat 4 2560) : Mat 4096 2560 :=
  reluLayer (reluLayer (reluLayer (reluLayer X (wAt W 0) (bAt B 0)) (wAt W 1) (bAt B 1)) (wAt W 2) (bAt B 2)) (wAt W 3) (bAt B 3)

/-- The hidden head: an affine layer of width 2048 on the trunk, under `tanh`. -/
def hidden (X : Mat 4096 2560) (W : Stack 4 2560 2560) (B : Mat 4 2560) (Wh : Mat 2048 2560) (bh : Vc 2048) : Mat 4096 2048 :=
  tanhLayer (trunk X W B) Wh bh

/-- The output head: a plain affine layer of width 512 on the trunk. -/
def output (X : Mat 4096 2560) (W : Stack 4 2560 2560) (B : Mat 4 2560) (Wo : Mat 512 2560) (bo : Vc 512) : Mat 4096 512 :=
  affine (trunk X W B) Wo bo

end Cert.Mlp

end
-- ==== Proof.Offsets.lean ====
/-
  The zero offsets of a rank-2 and of a rank-1 rectangle as constant functions: a body's loads and its one store all
  start at the origin of their staging buffers and take them whole.
-/
import Mathlib.Data.Fin.VecNotation

namespace Cert.KernelIdeal.Layers

theorem zero2 : (![0, 0] : Fin 2 → Nat) = fun _ => 0 :=
  funext fun a => match a with
    | ⟨0, _⟩ => rfl
    | ⟨1, _⟩ => rfl
theorem zero1 : (![0] : Fin 1 → Nat) = fun _ => 0 :=
  funext fun a => match a with
    | ⟨0, _⟩ => rfl

end Cert.KernelIdeal.Layers
-- ==== Proof.DotSquare.lean ====
/-
  The matrix product a kernel body performs on its block of 512 input rows, read at one entry, and the bias as the body
  spreads it over the block. Weight matrix: 2560 rows of length 2560.

  The body multiplies its 512 × 2560 block of input rows by the weight matrix, contracting the LAST axis of both, into a
  zero accumulator: entry `(p, q)` of the product is `∑ k, x p k * w q k`, row `p` of the block against row `q` of the
  weights. Four facts about the dimension record's operand indices (the left index is `(p, k)`, the right one `(q, k)`)
  turn the record's own sum over its contracted axis into the sum over `k : Fin 2560`. The bias vector is made a one-row
  matrix and that row repeated down the block, so entry `(p, q)` of what is added is `b q`.
-/
import proofs.«151112_j81827716924021_1_alg».proof.Proof.Gen.KernelIdeal
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx

namespace Cert.KernelIdeal.Layers

open Cert.KernelIdeal Cert.KernelIdeal.Gen

/-! ## The product read at an entry, and the bias as the body spreads it -/

theorem lhs_sq_0 (i : S512x2560.Idx) (q : dot_S512x2560_S2560x2560_S512x2560_1_1_0_0_n_n.contr.Idx) :
    (dot_S512x2560_S2560x2560_S512x2560_1_1_0_0_n_n.lhsIdx i q 0).val = (i 0).val := by
  unfold DotDims.lhsIdx
  rw [dif_neg (show ¬(0 : Fin S512x2560.rank) ∈ dot_S512x2560_S2560x2560_S512x2560_1_1_0_0_n_n.lhsBatch by decide), dif_pos (show (0 : Fin S512x2560.rank) ∈ dot_S512x2560_S2560x2560_S512x2560_1_1_0_0_n_n.lhsNonContracting by decide)]
  rfl
theorem lhs_sq_1 (i : S512x2560.Idx) (q : dot_S512x2560_S2560x2560_S512x2560_1_1_0_0_n_n.contr.Idx) :
    (dot_S512x2560_S2560x2560_S512x2560_1_1_0_0_n_n.lhsIdx i q 1).val = (q ⟨0, by decide⟩).val :=
  dot_S512x2560_S2560x2560_S512x2560_1_1_0_0_n_n.lhsIdx_val_of_single rfl i q
theorem rhs_sq_0 (i : S512x2560.Idx) (q : dot_S512x2560_S2560x2560_S512x2560_1_1_0_0_n_n.contr.Idx) :
    (dot_S512x2560_S2560x2560_S512x2560_1_1_0_0_n_n.rhsIdx i q 0).val = (i 1).val := by
  unfold DotDims.rhsIdx
  rw [dif_neg (show ¬(0 : Fin S2560x2560.rank) ∈ dot_S512x2560_S2560x2560_S512x2560_1_1_0_0_n_n.rhsBatch by decide), dif_pos (show (0 : Fin S2560x2560.rank) ∈ dot_S512x2560_S2560x2560_S512x2560_1_1_0_0_n_n.rhsNonContracting by decide)]
  rfl
theorem rhs_sq_1 (i : S512x2560.Idx) (q : dot_S512x2560_S2560x2560_S512x2560_1_1_0_0_n_n.contr.Idx) :
    (dot_S512x2560_S2560x2560_S512x2560_1_1_0_0_n_n.rhsIdx i q 1).val = (q ⟨0, by decide⟩).val :=
  dot_S512x2560_S2560x2560_S512x2560_1_1_0_0_n_n.rhsIdx_val_of_single rfl i q

/-- Into the zero accumulator the block product's entry `(p, q)` is row `p` of the left block against row `q` of the right. -/
theorem matmul_sq_apply (x : FVec Ideal S512x2560 .bf16) (w : FVec Ideal S2560x2560 .bf16) (p : Fin 512) (q : Fin 2560) :
    matmul (F := Ideal) dot_S512x2560_S2560x2560_S512x2560_1_1_0_0_n_n none x w (constant (F := Ideal) S512x2560 .f32 0x00000000#32) (ix2 p q)
      = ∑ k : Fin 2560, x (ix2 p k) * w (ix2 q k) := by
  simp only [matmul]
  rw [Ideal.matmul_constant_zero_apply, ← Equiv.sum_comp (ValueIdx.contrEquiv1 dot_S512x2560_S2560x2560_S512x2560_1_1_0_0_n_n 2560 rfl rfl).symm]
  refine Finset.sum_congr rfl fun k _ => ?_
  have hk := ValueIdx.contrEquiv1_symm_val dot_S512x2560_S2560x2560_S512x2560_1_1_0_0_n_n 2560 rfl rfl k
  have el : dot_S512x2560_S2560x2560_S512x2560_1_1_0_0_n_n.lhsIdx (ix2 p q) ((ValueIdx.contrEquiv1 dot_S512x2560_S2560x2560_S512x2560_1_1_0_0_n_n 2560 rfl rfl).symm k) = ix2 p k := funext fun a => Fin.ext (by
    match a with
    | ⟨0, _⟩ => exact lhs_sq_0 _ _
    | ⟨1, _⟩ => exact (lhs_sq_1 _ _).trans hk)
  have er : dot_S512x2560_S2560x2560_S512x2560_1_1_0_0_n_n.rhsIdx (ix2 p q) ((ValueIdx.contrEquiv1 dot_S512x2560_S2560x2560_S512x2560_1_1_0_0_n_n 2560 rfl rfl).symm k) = ix2 q k := funext fun a => Fin.ext (by
    match a with
    | ⟨0, _⟩ => exact rhs_sq_0 _ _
    | ⟨1, _⟩ => exact (rhs_sq_1 _ _).trans hk)
  rw [el, er]

/-- The bias as the body spreads it: the vector made a one-row matrix and that row repeated down the block. -/
theorem bias_sq_apply (b : FVec Ideal S2560 .f32) (p : Fin 512) (q : Fin 2560) :
    broadcastTo S512x2560 (shapeCast S1x2560 b shapeCasts_S2560_S1x2560) broadcasts_S1x2560_S512x2560 (ix2 p q)
      = b (ix1 q) := by
  rw [broadcastTo_1b_ab_apply, shapeCast_a_1a_apply]

end Cert.KernelIdeal.Layers

end
-- ==== Proof.Region0.lean ====
/-
  Region 0 of the kernel program: the first layer. Its output array, once every grid point has written its block back, is
  the positive-part affine layer of the three arrays the region reads — whatever those arrays hold when the region is
  entered.

  The grid has eight points; point `t` reads rows `512 t … 512 t + 511` of the input matrix, the whole weight matrix and
  the whole bias, and writes rows `512 t … 512 t + 511` of the output. Entry `(p, q)` of the block it writes is
  `max ((∑ k, x p k * w q k) + b q) 0` over the block's own rows, which is entry `(512 t + p, q)` of the layer on the whole
  matrix: a row of the product depends on that row of the input only. The eight blocks tile the 4096 rows.
-/
import proofs.«151112_j81827716924021_1_alg».proof.Proof.Gen.KernelIdeal.Frame
import proofs.«151112_j81827716924021_1_alg».proof.Proof.Spec
import proofs.«151112_j81827716924021_1_alg».proof.Proof.Offsets
import proofs.«151112_j81827716924021_1_alg».proof.Proof.DotSquare
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Layers

open Cert.KernelIdeal Cert.KernelIdeal.Gen

/-- What the body stores, at entry `(p, q)` of its block. -/
theorem pay0_apply (x : Vec Ideal S512x2560 .bf16) (w : Vec Ideal S2560x2560 .bf16) (b : Vec Ideal S2560 .f32) (p : Fin 512) (q : Fin 2560) :
    k0_pay1 (F := Ideal) x w b (ix2 p q) = Mlp.relu ((∑ k : Fin 2560, x (ix2 p k) * w (ix2 q k)) + b (ix1 q)) := by
  unfold k0_pay1
  simp only [maximumf_apply, addf_apply, broadcast_apply, shapeCast_self, matmul_sq_apply, bias_sq_apply]
  rfl

variable (V : (c : Dev nD) → (b : Ref sig .tc) → Buf (Elt Ideal) ((c : Thread nD τ).loc b))

/-- Which block of its array each window holds at point `t`: the input rows and the output rows move with the point, the
    weights and the bias are the whole arrays at every point. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- Row `p` of the input block at point `t` is row `512 t + p` of the input array. -/
theorem xblk0_apply (c : Dev nD) (t : Fin cfg0.N) (p : Fin 512) (k : Fin 2560) (r : Fin 4096) (hr : r.val = t.val * 512 + p.val) :
    iblk0 V c 0 t (ix2 p k) = V c (Pipeline.arrRef spec0 0) (ix2 r k) := by
  obtain ⟨e00, e01, -⟩ := idx0 t
  unfold iblk0
  rw [View.read_apply]
  show V c (Pipeline.arrRef spec0 0) (((cfg0.win 0).blk t).view.emb (ix2 p k)) = V c (Pipeline.arrRef spec0 0) (ix2 r k)
  refine congrArg (V c (Pipeline.arrRef spec0 0)) (funext fun a => Fin.ext ?_)
  match a with
  | ⟨0, _⟩ => show win0_0.index t (0 : Fin 2) * 512 + 1 * p.val = r.val; omega
  | ⟨1, _⟩ => show win0_0.index t (1 : Fin 2) * 2560 + 1 * k.val = k.val; omega

/-- The weight block at every point is the whole weight array. -/
theorem wblk0_apply (c : Dev nD) (t : Fin cfg0.N) (q : Fin 2560) (k : Fin 2560) (o : Fin 2560) (ho : o.val = q.val) :
    iblk0 V c 1 t (ix2 q k) = V c (Pipeline.arrRef spec0 1) (ix2 o k) := by
  obtain ⟨-, -, e10, e11, -⟩ := idx0 t
  unfold iblk0
  rw [View.read_apply]
  show V c (Pipeline.arrRef spec0 1) (((cfg0.win 1).blk t).view.emb (ix2 q k)) = V c (Pipeline.arrRef spec0 1) (ix2 o k)
  refine congrArg (V c (Pipeline.arrRef spec0 1)) (funext fun a => Fin.ext ?_)
  match a with
  | ⟨0, _⟩ => show win0_1.index t (0 : Fin 2) * 2560 + 1 * q.val = o.val; omega
  | ⟨1, _⟩ => show win0_1.index t (1 : Fin 2) * 2560 + 1 * k.val = k.val; omega

/-- The bias block at every point is the whole bias. -/
theorem bblk0_apply (c : Dev nD) (t : Fin cfg0.N) (q : Fin 2560) (o : Fin 2560) (ho : o.val = q.val) :
    iblk0 V c 2 t (ix1 q) = V c (Pipeline.arrRef spec0 2) (ix1 o) := by
  obtain ⟨-, -, -, -, e20, -⟩ := idx0 t
  unfold iblk0
  rw [View.read_apply]
  show V c (Pipeline.arrRef spec0 2) (((cfg0.win 2).blk t).view.emb (ix1 q)) = V c (Pipeline.arrRef spec0 2) (ix1 o)
  refine congrArg (V c (Pipeline.arrRef spec0 2)) (funext fun a => Fin.ext ?_)
  match a with
  | ⟨0, _⟩ => show win0_2.index t (0 : Fin 1) * 2560 + 1 * q.val = o.val; omega

/-- What point `t` writes back is block `t` of the layer of the arrays as the region finds them. -/
theorem flushed0 (c : Dev nD) (t : Fin cfg0.N) :
    (dat0 (F := Ideal) V c).flushed 3 t = ((cfg0.win 3).blk t).view.read (Elt Ideal)
      (Mlp.reluLayer (M := 4096) (N := 2560) (K := 2560) (V c (Pipeline.arrRef spec0 0)) (V c (Pipeline.arrRef spec0 1)) (V c (Pipeline.arrRef spec0 2))) := by
  show (cfg0.win 3).cut (grid0.coords t) ((dat0 V c).after 3 t) = _
  rw [after0_3]
  unfold out0_3
  rw [View.canon_unit_zero zero2]
  simp only [View.ld_unit_zero (S := S512x2560) zero2, View.ld_unit_zero (S := S2560x2560) zero2, View.ld_unit_zero (S := S2560) zero1]
  obtain ⟨e00, e01, e10, e11, e20, e30, e31⟩ := idx0 t
  funext j
  obtain ⟨p, q, rfl⟩ : ∃ (p : Fin 512) (q : Fin 2560), j = ix2 p q := ⟨j 0, j 1, eq_ix2 j⟩
  refine (pay0_apply (iblk0 V c 0 t) (iblk0 V c 1 t) (iblk0 V c 2 t) p q).trans ?_
  rw [View.read_apply]
  unfold Mlp.reluLayer Mlp.affine
  have h0 : ((((View.whole main_v7).slice ((win0 3).rect t)).emb (ix2 p q)) 0).val = t.val * 512 + p.val := by
    show win0_3.index t (0 : Fin 2) * 512 + 1 * p.val = _; omega
  have h1 : ((((View.whole main_v7).slice ((win0 3).rect t)).emb (ix2 p q)) 1).val = q.val := by
    show win0_3.index t (1 : Fin 2) * 2560 + 1 * q.val = _; omega
  refine congrArg Mlp.relu ?_
  refine congr (congrArg HAdd.hAdd (Finset.sum_congr rfl fun k _ => ?_)) ?_
  · exact congr (congrArg HMul.hMul (xblk0_apply V c t p k _ h0)) (wblk0_apply V c t q k _ h1)
  · exact bblk0_apply V c t q _ h1

theorem region0_array (c : Dev nD) :
    (dat0 (F := Ideal) V c).arrAt 3 cfg0.N
      = Mlp.reluLayer (M := 4096) (N := 2560) (K := 2560) (V c (Pipeline.arrRef spec0 0)) (V c (Pipeline.arrRef spec0 1)) (V c (Pipeline.arrRef spec0 2)) := by
  refine (dat0 (F := Ideal) V c).arrAt_eq_of_cover 3 _ (fun t _ => flushed0 V c t) fun i => ?_
  have hi0 : (i 0).val < 4096 := (i 0).isLt
  have hi1 : (i 1).val < 2560 := (i 1).isLt
  have hN : (i 0).val / 512 < cfg0.N := by rw [show cfg0.N = 8 from N_0]; omega
  obtain ⟨-, -, -, -, -, e30, e31⟩ := idx0 ⟨(i 0).val / 512, hN⟩
  refine ⟨⟨(i 0).val / 512, hN⟩, flush0_3 _, ?_⟩
  show i ∈ ((View.whole main_v7).slice (win0_3.rect ⟨(i 0).val / 512, hN⟩)).set
  rw [View.set_slice_whole, Rect.mem_set_unit]
  intro a
  match a with
  | ⟨0, _⟩ =>
    show win0_3.index ⟨(i 0).val / 512, hN⟩ (0 : Fin 2) * 512 ≤ (i 0).val ∧ (i 0).val < win0_3.index ⟨(i 0).val / 512, hN⟩ (0 : Fin 2) * 512 + 512
    rw [e30]; show (i 0).val / 512 * 512 ≤ (i 0).val ∧ (i 0).val < (i 0).val / 512 * 512 + 512; omega
  | ⟨1, _⟩ =>
    show win0_3.index ⟨(i 0).val / 512, hN⟩ (1 : Fin 2) * 2560 ≤ (i 1).val ∧ (i 1).val < win0_3.index ⟨(i 0).val / 512, hN⟩ (1 : Fin 2) * 2560 + 2560
    rw [e31]; omega

end Cert.KernelIdeal.Layers

end
-- ==== Proof.Region1.lean ====
/-
  Region 1 of the kernel program: the second layer. Its output array, once every grid point has written its block back, is
  the positive-part affine layer of the three arrays the region reads — whatever those arrays hold when the region is
  entered.

  The grid has eight points; point `t` reads rows `512 t … 512 t + 511` of the input matrix, the whole weight matrix and
  the whole bias, and writes rows `512 t … 512 t + 511` of the output. Entry `(p, q)` of the block it writes is
  `max ((∑ k, x p k * w q k) + b q) 0` over the block's own rows, which is entry `(512 t + p, q)` of the layer on the whole
  matrix: a row of the product depends on that row of the input only. The eight blocks tile the 4096 rows.
-/
import proofs.«151112_j81827716924021_1_alg».proof.Proof.Gen.KernelIdeal.Frame
import proofs.«151112_j81827716924021_1_alg».proof.Proof.Spec
import proofs.«151112_j81827716924021_1_alg».proof.Proof.Offsets
import proofs.«151112_j81827716924021_1_alg».proof.Proof.DotSquare
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Layers

open Cert.KernelIdeal Cert.KernelIdeal.Gen

/-- What the body stores, at entry `(p, q)` of its block. -/
theorem pay1_apply (x : Vec Ideal S512x2560 .bf16) (w : Vec Ideal S2560x2560 .bf16) (b : Vec Ideal S2560 .f32) (p : Fin 512) (q : Fin 2560) :
    k1_pay1 (F := Ideal) x w b (ix2 p q) = Mlp.relu ((∑ k : Fin 2560, x (ix2 p k) * w (ix2 q k)) + b (ix1 q)) := by
  unfold k1_pay1
  simp only [maximumf_apply, addf_apply, broadcast_apply, shapeCast_self, matmul_sq_apply, bias_sq_apply]
  rfl

variable (V : (c : Dev nD) → (b : Ref sig .tc) → Buf (Elt Ideal) ((c : Thread nD τ).loc b))

/-- Which block of its array each window holds at point `t`: the input rows and the output rows move with the point, the
    weights and the bias are the whole arrays at every point. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = t.val ∧ win1_3.index t (1 : Fin 2) = 0 :=
  (by decide +kernel : ∀ t : Fin grid1.N, _)

/-- Row `p` of the input block at point `t` is row `512 t + p` of the input array. -/
theorem xblk1_apply (c : Dev nD) (t : Fin cfg1.N) (p : Fin 512) (k : Fin 2560) (r : Fin 4096) (hr : r.val = t.val * 512 + p.val) :
    iblk1 V c 0 t (ix2 p k) = V c (Pipeline.arrRef spec1 0) (ix2 r k) := by
  obtain ⟨e00, e01, -⟩ := idx1 t
  unfold iblk1
  rw [View.read_apply]
  show V c (Pipeline.arrRef spec1 0) (((cfg1.win 0).blk t).view.emb (ix2 p k)) = V c (Pipeline.arrRef spec1 0) (ix2 r k)
  refine congrArg (V c (Pipeline.arrRef spec1 0)) (funext fun a => Fin.ext ?_)
  match a with
  | ⟨0, _⟩ => show win1_0.index t (0 : Fin 2) * 512 + 1 * p.val = r.val; omega
  | ⟨1, _⟩ => show win1_0.index t (1 : Fin 2) * 2560 + 1 * k.val = k.val; omega

/-- The weight block at every point is the whole weight array. -/
theorem wblk1_apply (c : Dev nD) (t : Fin cfg1.N) (q : Fin 2560) (k : Fin 2560) (o : Fin 2560) (ho : o.val = q.val) :
    iblk1 V c 1 t (ix2 q k) = V c (Pipeline.arrRef spec1 1) (ix2 o k) := by
  obtain ⟨-, -, e10, e11, -⟩ := idx1 t
  unfold iblk1
  rw [View.read_apply]
  show V c (Pipeline.arrRef spec1 1) (((cfg1.win 1).blk t).view.emb (ix2 q k)) = V c (Pipeline.arrRef spec1 1) (ix2 o k)
  refine congrArg (V c (Pipeline.arrRef spec1 1)) (funext fun a => Fin.ext ?_)
  match a with
  | ⟨0, _⟩ => show win1_1.index t (0 : Fin 2) * 2560 + 1 * q.val = o.val; omega
  | ⟨1, _⟩ => show win1_1.index t (1 : Fin 2) * 2560 + 1 * k.val = k.val; omega

/-- The bias block at every point is the whole bias. -/
theorem bblk1_apply (c : Dev nD) (t : Fin cfg1.N) (q : Fin 2560) (o : Fin 2560) (ho : o.val = q.val) :
    iblk1 V c 2 t (ix1 q) = V c (Pipeline.arrRef spec1 2) (ix1 o) := by
  obtain ⟨-, -, -, -, e20, -⟩ := idx1 t
  unfold iblk1
  rw [View.read_apply]
  show V c (Pipeline.arrRef spec1 2) (((cfg1.win 2).blk t).view.emb (ix1 q)) = V c (Pipeline.arrRef spec1 2) (ix1 o)
  refine congrArg (V c (Pipeline.arrRef spec1 2)) (funext fun a => Fin.ext ?_)
  match a with
  | ⟨0, _⟩ => show win1_2.index t (0 : Fin 1) * 2560 + 1 * q.val = o.val; omega

/-- What point `t` writes back is block `t` of the layer of the arrays as the region finds them. -/
theorem flushed1 (c : Dev nD) (t : Fin cfg1.N) :
    (dat1 (F := Ideal) V c).flushed 3 t = ((cfg1.win 3).blk t).view.read (Elt Ideal)
      (Mlp.reluLayer (M := 4096) (N := 2560) (K := 2560) (V c (Pipeline.arrRef spec1 0)) (V c (Pipeline.arrRef spec1 1)) (V c (Pipeline.arrRef spec1 2))) := by
  show (cfg1.win 3).cut (grid1.coords t) ((dat1 V c).after 3 t) = _
  rw [after1_3]
  unfold out1_3
  rw [View.canon_unit_zero zero2]
  simp only [View.ld_unit_zero (S := S512x2560) zero2, View.ld_unit_zero (S := S2560x2560) zero2, View.ld_unit_zero (S := S2560) zero1]
  obtain ⟨e00, e01, e10, e11, e20, e30, e31⟩ := idx1 t
  funext j
  obtain ⟨p, q, rfl⟩ : ∃ (p : Fin 512) (q : Fin 2560), j = ix2 p q := ⟨j 0, j 1, eq_ix2 j⟩
  refine (pay1_apply (iblk1 V c 0 t) (iblk1 V c 1 t) (iblk1 V c 2 t) p q).trans ?_
  rw [View.read_apply]
  unfold Mlp.reluLayer Mlp.affine
  have h0 : ((((View.whole main_v13).slice ((win1 3).rect t)).emb (ix2 p q)) 0).val = t.val * 512 + p.val := by
    show win1_3.index t (0 : Fin 2) * 512 + 1 * p.val = _; omega
  have h1 : ((((View.whole main_v13).slice ((win1 3).rect t)).emb (ix2 p q)) 1).val = q.val := by
    show win1_3.index t (1 : Fin 2) * 2560 + 1 * q.val = _; omega
  refine congrArg Mlp.relu ?_
  refine congr (congrArg HAdd.hAdd (Finset.sum_congr rfl fun k _ => ?_)) ?_
  · exact congr (congrArg HMul.hMul (xblk1_apply V c t p k _ h0)) (wblk1_apply V c t q k _ h1)
  · exact bblk1_apply V c t q _ h1

theorem region1_array (c : Dev nD) :
    (dat1 (F := Ideal) V c).arrAt 3 cfg1.N
      = Mlp.reluLayer (M := 4096) (N := 2560) (K := 2560) (V c (Pipeline.arrRef spec1 0)) (V c (Pipeline.arrRef spec1 1)) (V c (Pipeline.arrRef spec1 2)) := by
  refine (dat1 (F := Ideal) V c).arrAt_eq_of_cover 3 _ (fun t _ => flushed1 V c t) fun i => ?_
  have hi0 : (i 0).val < 4096 := (i 0).isLt
  have hi1 : (i 1).val < 2560 := (i 1).isLt
  have hN : (i 0).val / 512 < cfg1.N := by rw [show cfg1.N = 8 from N_1]; omega
  obtain ⟨-, -, -, -, -, e30, e31⟩ := idx1 ⟨(i 0).val / 512, hN⟩
  refine ⟨⟨(i 0).val / 512, hN⟩, flush1_3 _, ?_⟩
  show i ∈ ((View.whole main_v13).slice (win1_3.rect ⟨(i 0).val / 512, hN⟩)).set
  rw [View.set_slice_whole, Rect.mem_set_unit]
  intro a
  match a with
  | ⟨0, _⟩ =>
    show win1_3.index ⟨(i 0).val / 512, hN⟩ (0 : Fin 2) * 512 ≤ (i 0).val ∧ (i 0).val < win1_3.index ⟨(i 0).val / 512, hN⟩ (0 : Fin 2) * 512 + 512
    rw [e30]; show (i 0).val / 512 * 512 ≤ (i 0).val ∧ (i 0).val < (i 0).val / 512 * 512 + 512; omega
  | ⟨1, _⟩ =>
    show win1_3.index ⟨(i 0).val / 512, hN⟩ (1 : Fin 2) * 2560 ≤ (i 1).val ∧ (i 1).val < win1_3.index ⟨(i 0).val / 512, hN⟩ (1 : Fin 2) * 2560 + 2560
    rw [e31]; omega

end Cert.KernelIdeal.Layers

end
-- ==== Proof.Region2.lean ====
/-
  Region 2 of the kernel program: the third layer. Its output array, once every grid point has written its block back, is
  the positive-part affine layer of the three arrays the region reads — whatever those arrays hold when the region is
  entered.

  The grid has eight points; point `t` reads rows `512 t … 512 t + 511` of the input matrix, the whole weight matrix and
  the whole bias, and writes rows `512 t … 512 t + 511` of the output. Entry `(p, q)` of the block it writes is
  `max ((∑ k, x p k * w q k) + b q) 0` over the block's own rows, which is entry `(512 t + p, q)` of the layer on the whole
  matrix: a row of the product depends on that row of the input only. The eight blocks tile the 4096 rows.
-/
import proofs.«151112_j81827716924021_1_alg».proof.Proof.Gen.KernelIdeal.Frame
import proofs.«151112_j81827716924021_1_alg».proof.Proof.Spec
import proofs.«151112_j81827716924021_1_alg».proof.Proof.Offsets
import proofs.«151112_j81827716924021_1_alg».proof.Proof.DotSquare
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Layers

open Cert.KernelIdeal Cert.KernelIdeal.Gen

/-- What the body stores, at entry `(p, q)` of its block. -/
theorem pay2_apply (x : Vec Ideal S512x2560 .bf16) (w : Vec Ideal S2560x2560 .bf16) (b : Vec Ideal S2560 .f32) (p : Fin 512) (q : Fin 2560) :
    k2_pay1 (F := Ideal) x w b (ix2 p q) = Mlp.relu ((∑ k : Fin 2560, x (ix2 p k) * w (ix2 q k)) + b (ix1 q)) := by
  unfold k2_pay1
  simp only [maximumf_apply, addf_apply, broadcast_apply, shapeCast_self, matmul_sq_apply, bias_sq_apply]
  rfl

variable (V : (c : Dev nD) → (b : Ref sig .tc) → Buf (Elt Ideal) ((c : Thread nD τ).loc b))

/-- Which block of its array each window holds at point `t`: the input rows and the output rows move with the point, the
    weights and the bias are the whole arrays at every point. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 1) = 0
    ∧ win2_3.index t (0 : Fin 2) = t.val ∧ win2_3.index t (1 : Fin 2) = 0 :=
  (by decide +kernel : ∀ t : Fin grid2.N, _)

/-- Row `p` of the input block at point `t` is row `512 t + p` of the input array. -/
theorem xblk2_apply (c : Dev nD) (t : Fin cfg2.N) (p : Fin 512) (k : Fin 2560) (r : Fin 4096) (hr : r.val = t.val * 512 + p.val) :
    iblk2 V c 0 t (ix2 p k) = V c (Pipeline.arrRef spec2 0) (ix2 r k) := by
  obtain ⟨e00, e01, -⟩ := idx2 t
  unfold iblk2
  rw [View.read_apply]
  show V c (Pipeline.arrRef spec2 0) (((cfg2.win 0).blk t).view.emb (ix2 p k)) = V c (Pipeline.arrRef spec2 0) (ix2 r k)
  refine congrArg (V c (Pipeline.arrRef spec2 0)) (funext fun a => Fin.ext ?_)
  match a with
  | ⟨0, _⟩ => show win2_0.index t (0 : Fin 2) * 512 + 1 * p.val = r.val; omega
  | ⟨1, _⟩ => show win2_0.index t (1 : Fin 2) * 2560 + 1 * k.val = k.val; omega

/-- The weight block at every point is the whole weight array. -/
theorem wblk2_apply (c : Dev nD) (t : Fin cfg2.N) (q : Fin 2560) (k : Fin 2560) (o : Fin 2560) (ho : o.val = q.val) :
    iblk2 V c 1 t (ix2 q k) = V c (Pipeline.arrRef spec2 1) (ix2 o k) := by
  obtain ⟨-, -, e10, e11, -⟩ := idx2 t
  unfold iblk2
  rw [View.read_apply]
  show V c (Pipeline.arrRef spec2 1) (((cfg2.win 1).blk t).view.emb (ix2 q k)) = V c (Pipeline.arrRef spec2 1) (ix2 o k)
  refine congrArg (V c (Pipeline.arrRef spec2 1)) (funext fun a => Fin.ext ?_)
  match a with
  | ⟨0, _⟩ => show win2_1.index t (0 : Fin 2) * 2560 + 1 * q.val = o.val; omega
  | ⟨1, _⟩ => show win2_1.index t (1 : Fin 2) * 2560 + 1 * k.val = k.val; omega

/-- The bias block at every point is the whole bias. -/
theorem bblk2_apply (c : Dev nD) (t : Fin cfg2.N) (q : Fin 2560) (o : Fin 2560) (ho : o.val = q.val) :
    iblk2 V c 2 t (ix1 q) = V c (Pipeline.arrRef spec2 2) (ix1 o) := by
  obtain ⟨-, -, -, -, e20, -⟩ := idx2 t
  unfold iblk2
  rw [View.read_apply]
  show V c (Pipeline.arrRef spec2 2) (((cfg2.win 2).blk t).view.emb (ix1 q)) = V c (Pipeline.arrRef spec2 2) (ix1 o)
  refine congrArg (V c (Pipeline.arrRef spec2 2)) (funext fun a => Fin.ext ?_)
  match a with
  | ⟨0, _⟩ => show win2_2.index t (0 : Fin 1) * 2560 + 1 * q.val = o.val; omega

/-- What point `t` writes back is block `t` of the layer of the arrays as the region finds them. -/
theorem flushed2 (c : Dev nD) (t : Fin cfg2.N) :
    (dat2 (F := Ideal) V c).flushed 3 t = ((cfg2.win 3).blk t).view.read (Elt Ideal)
      (Mlp.reluLayer (M := 4096) (N := 2560) (K := 2560) (V c (Pipeline.arrRef spec2 0)) (V c (Pipeline.arrRef spec2 1)) (V c (Pipeline.arrRef spec2 2))) := by
  show (cfg2.win 3).cut (grid2.coords t) ((dat2 V c).after 3 t) = _
  rw [after2_3]
  unfold out2_3
  rw [View.canon_unit_zero zero2]
  simp only [View.ld_unit_zero (S := S512x2560) zero2, View.ld_unit_zero (S := S2560x2560) zero2, View.ld_unit_zero (S := S2560) zero1]
  obtain ⟨e00, e01, e10, e11, e20, e30, e31⟩ := idx2 t
  funext j
  obtain ⟨p, q, rfl⟩ : ∃ (p : Fin 512) (q : Fin 2560), j = ix2 p q := ⟨j 0, j 1, eq_ix2 j⟩
  refine (pay2_apply (iblk2 V c 0 t) (iblk2 V c 1 t) (iblk2 V c 2 t) p q).trans ?_
  rw [View.read_apply]
  unfold Mlp.reluLayer Mlp.affine
  have h0 : ((((View.whole main_v19).slice ((win2 3).rect t)).emb (ix2 p q)) 0).val = t.val * 512 + p.val := by
    show win2_3.index t (0 : Fin 2) * 512 + 1 * p.val = _; omega
  have h1 : ((((View.whole main_v19).slice ((win2 3).rect t)).emb (ix2 p q)) 1).val = q.val := by
    show win2_3.index t (1 : Fin 2) * 2560 + 1 * q.val = _; omega
  refine congrArg Mlp.relu ?_
  refine congr (congrArg HAdd.hAdd (Finset.sum_congr rfl fun k _ => ?_)) ?_
  · exact congr (congrArg HMul.hMul (xblk2_apply V c t p k _ h0)) (wblk2_apply V c t q k _ h1)
  · exact bblk2_apply V c t q _ h1

theorem region2_array (c : Dev nD) :
    (dat2 (F := Ideal) V c).arrAt 3 cfg2.N
      = Mlp.reluLayer (M := 4096) (N := 2560) (K := 2560) (V c (Pipeline.arrRef spec2 0)) (V c (Pipeline.arrRef spec2 1)) (V c (Pipeline.arrRef spec2 2)) := by
  refine (dat2 (F := Ideal) V c).arrAt_eq_of_cover 3 _ (fun t _ => flushed2 V c t) fun i => ?_
  have hi0 : (i 0).val < 4096 := (i 0).isLt
  have hi1 : (i 1).val < 2560 := (i 1).isLt
  have hN : (i 0).val / 512 < cfg2.N := by rw [show cfg2.N = 8 from N_2]; omega
  obtain ⟨-, -, -, -, -, e30, e31⟩ := idx2 ⟨(i 0).val / 512, hN⟩
  refine ⟨⟨(i 0).val / 512, hN⟩, flush2_3 _, ?_⟩
  show i ∈ ((View.whole main_v19).slice (win2_3.rect ⟨(i 0).val / 512, hN⟩)).set
  rw [View.set_slice_whole, Rect.mem_set_unit]
  intro a
  match a with
  | ⟨0, _⟩ =>
    show win2_3.index ⟨(i 0).val / 512, hN⟩ (0 : Fin 2) * 512 ≤ (i 0).val ∧ (i 0).val < win2_3.index ⟨(i 0).val / 512, hN⟩ (0 : Fin 2) * 512 + 512
    rw [e30]; show (i 0).val / 512 * 512 ≤ (i 0).val ∧ (i 0).val < (i 0).val / 512 * 512 + 512; omega
  | ⟨1, _⟩ =>
    show win2_3.index ⟨(i 0).val / 512, hN⟩ (1 : Fin 2) * 2560 ≤ (i 1).val ∧ (i 1).val < win2_3.index ⟨(i 0).val / 512, hN⟩ (1 : Fin 2) * 2560 + 2560
    rw [e31]; omega

end Cert.KernelIdeal.Layers

end
-- ==== Proof.Region3.lean ====
/-
  Region 3 of the kernel program: the fourth layer. Its output array, once every grid point has written its block back, is
  the positive-part affine layer of the three arrays the region reads — whatever those arrays hold when the region is
  entered.

  The grid has eight points; point `t` reads rows `512 t … 512 t + 511` of the input matrix, the whole weight matrix and
  the whole bias, and writes rows `512 t … 512 t + 511` of the output. Entry `(p, q)` of the block it writes is
  `max ((∑ k, x p k * w q k) + b q) 0` over the block's own rows, which is entry `(512 t + p, q)` of the layer on the whole
  matrix: a row of the product depends on that row of the input only. The eight blocks tile the 4096 rows.
-/
import proofs.«151112_j81827716924021_1_alg».proof.Proof.Gen.KernelIdeal.Frame
import proofs.«151112_j81827716924021_1_alg».proof.Proof.Spec
import proofs.«151112_j81827716924021_1_alg».proof.Proof.Offsets
import proofs.«151112_j81827716924021_1_alg».proof.Proof.DotSquare
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Layers

open Cert.KernelIdeal Cert.KernelIdeal.Gen

/-- What the body stores, at entry `(p, q)` of its block. -/
theorem pay3_apply (x : Vec Ideal S512x2560 .bf16) (w : Vec Ideal S2560x2560 .bf16) (b : Vec Ideal S2560 .f32) (p : Fin 512) (q : Fin 2560) :
    k3_pay1 (F := Ideal) x w b (ix2 p q) = Mlp.relu ((∑ k : Fin 2560, x (ix2 p k) * w (ix2 q k)) + b (ix1 q)) := by
  unfold k3_pay1
  simp only [maximumf_apply, addf_apply, broadcast_apply, shapeCast_self, matmul_sq_apply, bias_sq_apply]
  rfl

variable (V : (c : Dev nD) → (b : Ref sig .tc) → Buf (Elt Ideal) ((c : Thread nD τ).loc b))

/-- Which block of its array each window holds at point `t`: the input rows and the output rows move with the point, the
    weights and the bias are the whole arrays at every point. -/
theorem idx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 1) = 0
    ∧ win3_3.index t (0 : Fin 2) = t.val ∧ win3_3.index t (1 : Fin 2) = 0 :=
  (by decide +kernel : ∀ t : Fin grid3.N, _)

/-- Row `p` of the input block at point `t` is row `512 t + p` of the input array. -/
theorem xblk3_apply (c : Dev nD) (t : Fin cfg3.N) (p : Fin 512) (k : Fin 2560) (r : Fin 4096) (hr : r.val = t.val * 512 + p.val) :
    iblk3 V c 0 t (ix2 p k) = V c (Pipeline.arrRef spec3 0) (ix2 r k) := by
  obtain ⟨e00, e01, -⟩ := idx3 t
  unfold iblk3
  rw [View.read_apply]
  show V c (Pipeline.arrRef spec3 0) (((cfg3.win 0).blk t).view.emb (ix2 p k)) = V c (Pipeline.arrRef spec3 0) (ix2 r k)
  refine congrArg (V c (Pipeline.arrRef spec3 0)) (funext fun a => Fin.ext ?_)
  match a with
  | ⟨0, _⟩ => show win3_0.index t (0 : Fin 2) * 512 + 1 * p.val = r.val; omega
  | ⟨1, _⟩ => show win3_0.index t (1 : Fin 2) * 2560 + 1 * k.val = k.val; omega

/-- The weight block at every point is the whole weight array. -/
theorem wblk3_apply (c : Dev nD) (t : Fin cfg3.N) (q : Fin 2560) (k : Fin 2560) (o : Fin 2560) (ho : o.val = q.val) :
    iblk3 V c 1 t (ix2 q k) = V c (Pipeline.arrRef spec3 1) (ix2 o k) := by
  obtain ⟨-, -, e10, e11, -⟩ := idx3 t
  unfold iblk3
  rw [View.read_apply]
  show V c (Pipeline.arrRef spec3 1) (((cfg3.win 1).blk t).view.emb (ix2 q k)) = V c (Pipeline.arrRef spec3 1) (ix2 o k)
  refine congrArg (V c (Pipeline.arrRef spec3 1)) (funext fun a => Fin.ext ?_)
  match a with
  | ⟨0, _⟩ => show win3_1.index t (0 : Fin 2) * 2560 + 1 * q.val = o.val; omega
  | ⟨1, _⟩ => show win3_1.index t (1 : Fin 2) * 2560 + 1 * k.val = k.val; omega

/-- The bias block at every point is the whole bias. -/
theorem bblk3_apply (c : Dev nD) (t : Fin cfg3.N) (q : Fin 2560) (o : Fin 2560) (ho : o.val = q.val) :
    iblk3 V c 2 t (ix1 q) = V c (Pipeline.arrRef spec3 2) (ix1 o) := by
  obtain ⟨-, -, -, -, e20, -⟩ := idx3 t
  unfold iblk3
  rw [View.read_apply]
  show V c (Pipeline.arrRef spec3 2) (((cfg3.win 2).blk t).view.emb (ix1 q)) = V c (Pipeline.arrRef spec3 2) (ix1 o)
  refine congrArg (V c (Pipeline.arrRef spec3 2)) (funext fun a => Fin.ext ?_)
  match a with
  | ⟨0, _⟩ => show win3_2.index t (0 : Fin 1) * 2560 + 1 * q.val = o.val; omega

/-- What point `t` writes back is block `t` of the layer of the arrays as the region finds them. -/
theorem flushed3 (c : Dev nD) (t : Fin cfg3.N) :
    (dat3 (F := Ideal) V c).flushed 3 t = ((cfg3.win 3).blk t).view.read (Elt Ideal)
      (Mlp.reluLayer (M := 4096) (N := 2560) (K := 2560) (V c (Pipeline.arrRef spec3 0)) (V c (Pipeline.arrRef spec3 1)) (V c (Pipeline.arrRef spec3 2))) := by
  show (cfg3.win 3).cut (grid3.coords t) ((dat3 V c).after 3 t) = _
  rw [after3_3]
  unfold out3_3
  rw [View.canon_unit_zero zero2]
  simp only [View.ld_unit_zero (S := S512x2560) zero2, View.ld_unit_zero (S := S2560x2560) zero2, View.ld_unit_zero (S := S2560) zero1]
  obtain ⟨e00, e01, e10, e11, e20, e30, e31⟩ := idx3 t
  funext j
  obtain ⟨p, q, rfl⟩ : ∃ (p : Fin 512) (q : Fin 2560), j = ix2 p q := ⟨j 0, j 1, eq_ix2 j⟩
  refine (pay3_apply (iblk3 V c 0 t) (iblk3 V c 1 t) (iblk3 V c 2 t) p q).trans ?_
  rw [View.read_apply]
  unfold Mlp.reluLayer Mlp.affine
  have h0 : ((((View.whole main_v25).slice ((win3 3).rect t)).emb (ix2 p q)) 0).val = t.val * 512 + p.val := by
    show win3_3.index t (0 : Fin 2) * 512 + 1 * p.val = _; omega
  have h1 : ((((View.whole main_v25).slice ((win3 3).rect t)).emb (ix2 p q)) 1).val = q.val := by
    show win3_3.index t (1 : Fin 2) * 2560 + 1 * q.val = _; omega
  refine congrArg Mlp.relu ?_
  refine congr (congrArg HAdd.hAdd (Finset.sum_congr rfl fun k _ => ?_)) ?_
  · exact congr (congrArg HMul.hMul (xblk3_apply V c t p k _ h0)) (wblk3_apply V c t q k _ h1)
  · exact bblk3_apply V c t q _ h1

theorem region3_array (c : Dev nD) :
    (dat3 (F := Ideal) V c).arrAt 3 cfg3.N
      = Mlp.reluLayer (M := 4096) (N := 2560) (K := 2560) (V c (Pipeline.arrRef spec3 0)) (V c (Pipeline.arrRef spec3 1)) (V c (Pipeline.arrRef spec3 2)) := by
  refine (dat3 (F := Ideal) V c).arrAt_eq_of_cover 3 _ (fun t _ => flushed3 V c t) fun i => ?_
  have hi0 : (i 0).val < 4096 := (i 0).isLt
  have hi1 : (i 1).val < 2560 := (i 1).isLt
  have hN : (i 0).val / 512 < cfg3.N := by rw [show cfg3.N = 8 from N_3]; omega
  obtain ⟨-, -, -, -, -, e30, e31⟩ := idx3 ⟨(i 0).val / 512, hN⟩
  refine ⟨⟨(i 0).val / 512, hN⟩, flush3_3 _, ?_⟩
  show i ∈ ((View.whole main_v25).slice (win3_3.rect ⟨(i 0).val / 512, hN⟩)).set
  rw [View.set_slice_whole, Rect.mem_set_unit]
  intro a
  match a with
  | ⟨0, _⟩ =>
    show win3_3.index ⟨(i 0).val / 512, hN⟩ (0 : Fin 2) * 512 ≤ (i 0).val ∧ (i 0).val < win3_3.index ⟨(i 0).val / 512, hN⟩ (0 : Fin 2) * 512 + 512
    rw [e30]; show (i 0).val / 512 * 512 ≤ (i 0).val ∧ (i 0).val < (i 0).val / 512 * 512 + 512; omega
  | ⟨1, _⟩ =>
    show win3_3.index ⟨(i 0).val / 512, hN⟩ (1 : Fin 2) * 2560 ≤ (i 1).val ∧ (i 1).val < win3_3.index ⟨(i 0).val / 512, hN⟩ (1 : Fin 2) * 2560 + 2560
    rw [e31]; omega

end Cert.KernelIdeal.Layers

end
-- ==== Proof.DotHidden.lean ====
/-
  The matrix product a kernel body performs on its block of 512 input rows, read at one entry, and the bias as the body
  spreads it over the block. Weight matrix: 2048 rows of length 2560.

  The body multiplies its 512 × 2560 block of input rows by the weight matrix, contracting the LAST axis of both, into a
  zero accumulator: entry `(p, q)` of the product is `∑ k, x p k * w q k`, row `p` of the block against row `q` of the
  weights. Four facts about the dimension record's operand indices (the left index is `(p, k)`, the right one `(q, k)`)
  turn the record's own sum over its contracted axis into the sum over `k : Fin 2560`. The bias vector is made a one-row
  matrix and that row repeated down the block, so entry `(p, q)` of what is added is `b q`.
-/
import proofs.«151112_j81827716924021_1_alg».proof.Proof.Gen.KernelIdeal
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx

namespace Cert.KernelIdeal.Layers

open Cert.KernelIdeal Cert.KernelIdeal.Gen

/-! ## The product read at an entry, and the bias as the body spreads it -/

theorem lhs_hid_0 (i : S512x2048.Idx) (q : dot_S512x2560_S2048x2560_S512x2048_1_1_0_0_n_n.contr.Idx) :
    (dot_S512x2560_S2048x2560_S512x2048_1_1_0_0_n_n.lhsIdx i q 0).val = (i 0).val := by
  unfold DotDims.lhsIdx
  rw [dif_neg (show ¬(0 : Fin S512x2560.rank) ∈ dot_S512x2560_S2048x2560_S512x2048_1_1_0_0_n_n.lhsBatch by decide), dif_pos (show (0 : Fin S512x2560.rank) ∈ dot_S512x2560_S2048x2560_S512x2048_1_1_0_0_n_n.lhsNonContracting by decide)]
  rfl
theorem lhs_hid_1 (i : S512x2048.Idx) (q : dot_S512x2560_S2048x2560_S512x2048_1_1_0_0_n_n.contr.Idx) :
    (dot_S512x2560_S2048x2560_S512x2048_1_1_0_0_n_n.lhsIdx i q 1).val = (q ⟨0, by decide⟩).val :=
  dot_S512x2560_S2048x2560_S512x2048_1_1_0_0_n_n.lhsIdx_val_of_single rfl i q
theorem rhs_hid_0 (i : S512x2048.Idx) (q : dot_S512x2560_S2048x2560_S512x2048_1_1_0_0_n_n.contr.Idx) :
    (dot_S512x2560_S2048x2560_S512x2048_1_1_0_0_n_n.rhsIdx i q 0).val = (i 1).val := by
  unfold DotDims.rhsIdx
  rw [dif_neg (show ¬(0 : Fin S2048x2560.rank) ∈ dot_S512x2560_S2048x2560_S512x2048_1_1_0_0_n_n.rhsBatch by decide), dif_pos (show (0 : Fin S2048x2560.rank) ∈ dot_S512x2560_S2048x2560_S512x2048_1_1_0_0_n_n.rhsNonContracting by decide)]
  rfl
theorem rhs_hid_1 (i : S512x2048.Idx) (q : dot_S512x2560_S2048x2560_S512x2048_1_1_0_0_n_n.contr.Idx) :
    (dot_S512x2560_S2048x2560_S512x2048_1_1_0_0_n_n.rhsIdx i q 1).val = (q ⟨0, by decide⟩).val :=
  dot_S512x2560_S2048x2560_S512x2048_1_1_0_0_n_n.rhsIdx_val_of_single rfl i q

/-- Into the zero accumulator the block product's entry `(p, q)` is row `p` of the left block against row `q` of the right. -/
theorem matmul_hid_apply (x : FVec Ideal S512x2560 .bf16) (w : FVec Ideal S2048x2560 .bf16) (p : Fin 512) (q : Fin 2048) :
    matmul (F := Ideal) dot_S512x2560_S2048x2560_S512x2048_1_1_0_0_n_n none x w (constant (F := Ideal) S512x2048 .f32 0x00000000#32) (ix2 p q)
      = ∑ k : Fin 2560, x (ix2 p k) * w (ix2 q k) := by
  simp only [matmul]
  rw [Ideal.matmul_constant_zero_apply, ← Equiv.sum_comp (ValueIdx.contrEquiv1 dot_S512x2560_S2048x2560_S512x2048_1_1_0_0_n_n 2560 rfl rfl).symm]
  refine Finset.sum_congr rfl fun k _ => ?_
  have hk := ValueIdx.contrEquiv1_symm_val dot_S512x2560_S2048x2560_S512x2048_1_1_0_0_n_n 2560 rfl rfl k
  have el : dot_S512x2560_S2048x2560_S512x2048_1_1_0_0_n_n.lhsIdx (ix2 p q) ((ValueIdx.contrEquiv1 dot_S512x2560_S2048x2560_S512x2048_1_1_0_0_n_n 2560 rfl rfl).symm k) = ix2 p k := funext fun a => Fin.ext (by
    match a with
    | ⟨0, _⟩ => exact lhs_hid_0 _ _
    | ⟨1, _⟩ => exact (lhs_hid_1 _ _).trans hk)
  have er : dot_S512x2560_S2048x2560_S512x2048_1_1_0_0_n_n.rhsIdx (ix2 p q) ((ValueIdx.contrEquiv1 dot_S512x2560_S2048x2560_S512x2048_1_1_0_0_n_n 2560 rfl rfl).symm k) = ix2 q k := funext fun a => Fin.ext (by
    match a with
    | ⟨0, _⟩ => exact rhs_hid_0 _ _
    | ⟨1, _⟩ => exact (rhs_hid_1 _ _).trans hk)
  rw [el, er]

/-- The bias as the body spreads it: the vector made a one-row matrix and that row repeated down the block. -/
theorem bias_hid_apply (b : FVec Ideal S2048 .f32) (p : Fin 512) (q : Fin 2048) :
    broadcastTo S512x2048 (shapeCast S1x2048 b shapeCasts_S2048_S1x2048) broadcasts_S1x2048_S512x2048 (ix2 p q)
      = b (ix1 q) := by
  rw [broadcastTo_1b_ab_apply, shapeCast_a_1a_apply]

end Cert.KernelIdeal.Layers

end
-- ==== Proof.Region4.lean ====
/-
  Region 4 of the kernel program: the hidden head. Its output array, once every grid point has written its block back,
  is the `tanh` affine layer of the three arrays the region reads — whatever those arrays hold when the region is entered.

  The grid has eight points; point `t` reads rows `512 t … 512 t + 511` of the trunk's output, the whole 2048 × 2560 weight
  matrix and the whole bias of length 2048, and writes rows `512 t … 512 t + 511` of the 4096 × 2048 result. Entry `(p, q)`
  of the block it writes is `tanh ((∑ k, x p k * w q k) + b q)` over the block's own rows, which is entry `(512 t + p, q)`
  of the layer on the whole matrix. The eight blocks tile the 4096 rows.
-/
import proofs.«151112_j81827716924021_1_alg».proof.Proof.Gen.KernelIdeal.Frame
import proofs.«151112_j81827716924021_1_alg».proof.Proof.Spec
import proofs.«151112_j81827716924021_1_alg».proof.Proof.Offsets
import proofs.«151112_j81827716924021_1_alg».proof.Proof.DotHidden
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Layers

open Cert.KernelIdeal Cert.KernelIdeal.Gen

/-- The hyperbolic tangent of a vector, read at an index, is the tangent of the entry. -/
theorem tanh_vec_apply {s : Shape} {φ : FTy} (a : FVec Ideal s φ) (i : s.Idx) : tanh a i = Ideal.tanh (a i) := rfl

/-- What the body stores, at entry `(p, q)` of its block. -/
theorem pay4_apply (x : Vec Ideal S512x2560 .bf16) (w : Vec Ideal S2048x2560 .bf16) (b : Vec Ideal S2048 .f32) (p : Fin 512) (q : Fin 2048) :
    k4_pay1 (F := Ideal) x w b (ix2 p q) = Ideal.tanh ((∑ k : Fin 2560, x (ix2 p k) * w (ix2 q k)) + b (ix1 q)) := by
  unfold k4_pay1
  simp only [tanh_vec_apply, addf_apply, shapeCast_self, matmul_hid_apply, bias_hid_apply]

variable (V : (c : Dev nD) → (b : Ref sig .tc) → Buf (Elt Ideal) ((c : Thread nD τ).loc b))

/-- Which block of its array each window holds at point `t`: the input rows and the output rows move with the point, the
    weights and the bias are the whole arrays at every point. -/
theorem idx4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 1) = 0
    ∧ win4_3.index t (0 : Fin 2) = t.val ∧ win4_3.index t (1 : Fin 2) = 0 :=
  (by decide +kernel : ∀ t : Fin grid4.N, _)

/-- Row `p` of the input block at point `t` is row `512 t + p` of the input array. -/
theorem xblk4_apply (c : Dev nD) (t : Fin cfg4.N) (p : Fin 512) (k : Fin 2560) (r : Fin 4096) (hr : r.val = t.val * 512 + p.val) :
    iblk4 V c 0 t (ix2 p k) = V c (Pipeline.arrRef spec4 0) (ix2 r k) := by
  obtain ⟨e00, e01, -⟩ := idx4 t
  unfold iblk4
  rw [View.read_apply]
  show V c (Pipeline.arrRef spec4 0) (((cfg4.win 0).blk t).view.emb (ix2 p k)) = V c (Pipeline.arrRef spec4 0) (ix2 r k)
  refine congrArg (V c (Pipeline.arrRef spec4 0)) (funext fun a => Fin.ext ?_)
  match a with
  | ⟨0, _⟩ => show win4_0.index t (0 : Fin 2) * 512 + 1 * p.val = r.val; omega
  | ⟨1, _⟩ => show win4_0.index t (1 : Fin 2) * 2560 + 1 * k.val = k.val; omega

/-- The weight block at every point is the whole weight array. -/
theorem wblk4_apply (c : Dev nD) (t : Fin cfg4.N) (q : Fin 2048) (k : Fin 2560) (o : Fin 2048) (ho : o.val = q.val) :
    iblk4 V c 1 t (ix2 q k) = V c (Pipeline.arrRef spec4 1) (ix2 o k) := by
  obtain ⟨-, -, e10, e11, -⟩ := idx4 t
  unfold iblk4
  rw [View.read_apply]
  show V c (Pipeline.arrRef spec4 1) (((cfg4.win 1).blk t).view.emb (ix2 q k)) = V c (Pipeline.arrRef spec4 1) (ix2 o k)
  refine congrArg (V c (Pipeline.arrRef spec4 1)) (funext fun a => Fin.ext ?_)
  match a with
  | ⟨0, _⟩ => show win4_1.index t (0 : Fin 2) * 2048 + 1 * q.val = o.val; omega
  | ⟨1, _⟩ => show win4_1.index t (1 : Fin 2) * 2560 + 1 * k.val = k.val; omega

/-- The bias block at every point is the whole bias. -/
theorem bblk4_apply (c : Dev nD) (t : Fin cfg4.N) (q : Fin 2048) (o : Fin 2048) (ho : o.val = q.val) :
    iblk4 V c 2 t (ix1 q) = V c (Pipeline.arrRef spec4 2) (ix1 o) := by
  obtain ⟨-, -, -, -, e20, -⟩ := idx4 t
  unfold iblk4
  rw [View.read_apply]
  show V c (Pipeline.arrRef spec4 2) (((cfg4.win 2).blk t).view.emb (ix1 q)) = V c (Pipeline.arrRef spec4 2) (ix1 o)
  refine congrArg (V c (Pipeline.arrRef spec4 2)) (funext fun a => Fin.ext ?_)
  match a with
  | ⟨0, _⟩ => show win4_2.index t (0 : Fin 1) * 2048 + 1 * q.val = o.val; omega

/-- What point `t` writes back is block `t` of the layer of the arrays as the region finds them. -/
theorem flushed4 (c : Dev nD) (t : Fin cfg4.N) :
    (dat4 (F := Ideal) V c).flushed 3 t = ((cfg4.win 3).blk t).view.read (Elt Ideal)
      (Mlp.tanhLayer (M := 4096) (N := 2048) (K := 2560) (V c (Pipeline.arrRef spec4 0)) (V c (Pipeline.arrRef spec4 1)) (V c (Pipeline.arrRef spec4 2))) := by
  show (cfg4.win 3).cut (grid4.coords t) ((dat4 V c).after 3 t) = _
  rw [after4_3]
  unfold out4_3
  rw [View.canon_unit_zero zero2]
  simp only [View.ld_unit_zero (S := S512x2560) zero2, View.ld_unit_zero (S := S2048x2560) zero2, View.ld_unit_zero (S := S2048) zero1]
  obtain ⟨e00, e01, e10, e11, e20, e30, e31⟩ := idx4 t
  funext j
  obtain ⟨p, q, rfl⟩ : ∃ (p : Fin 512) (q : Fin 2048), j = ix2 p q := ⟨j 0, j 1, eq_ix2 j⟩
  refine (pay4_apply (iblk4 V c 0 t) (iblk4 V c 1 t) (iblk4 V c 2 t) p q).trans ?_
  rw [View.read_apply]
  unfold Mlp.tanhLayer Mlp.affine
  have h0 : ((((View.whole main_v28).slice ((win4 3).rect t)).emb (ix2 p q)) 0).val = t.val * 512 + p.val := by
    show win4_3.index t (0 : Fin 2) * 512 + 1 * p.val = _; omega
  have h1 : ((((View.whole main_v28).slice ((win4 3).rect t)).emb (ix2 p q)) 1).val = q.val := by
    show win4_3.index t (1 : Fin 2) * 2048 + 1 * q.val = _; omega
  refine congrArg Ideal.tanh ?_
  refine congr (congrArg HAdd.hAdd (Finset.sum_congr rfl fun k _ => ?_)) ?_
  · exact congr (congrArg HMul.hMul (xblk4_apply V c t p k _ h0)) (wblk4_apply V c t q k _ h1)
  · exact bblk4_apply V c t q _ h1

/-- The hidden head's array after the region: every row is in the block of the point `row / 512`. -/
theorem region4_array (c : Dev nD) :
    (dat4 (F := Ideal) V c).arrAt 3 cfg4.N
      = Mlp.tanhLayer (M := 4096) (N := 2048) (K := 2560) (V c (Pipeline.arrRef spec4 0)) (V c (Pipeline.arrRef spec4 1)) (V c (Pipeline.arrRef spec4 2)) := by
  refine (dat4 (F := Ideal) V c).arrAt_eq_of_cover 3 _ (fun t _ => flushed4 V c t) fun i => ?_
  have hi0 : (i 0).val < 4096 := (i 0).isLt
  have hi1 : (i 1).val < 2048 := (i 1).isLt
  have hN : (i 0).val / 512 < cfg4.N := by rw [show cfg4.N = 8 from N_4]; omega
  obtain ⟨-, -, -, -, -, e30, e31⟩ := idx4 ⟨(i 0).val / 512, hN⟩
  refine ⟨⟨(i 0).val / 512, hN⟩, flush4_3 _, ?_⟩
  show i ∈ ((View.whole main_v28).slice (win4_3.rect ⟨(i 0).val / 512, hN⟩)).set
  rw [View.set_slice_whole, Rect.mem_set_unit]
  intro a
  match a with
  | ⟨0, _⟩ =>
    show win4_3.index ⟨(i 0).val / 512, hN⟩ (0 : Fin 2) * 512 ≤ (i 0).val ∧ (i 0).val < win4_3.index ⟨(i 0).val / 512, hN⟩ (0 : Fin 2) * 512 + 512
    rw [e30]; show (i 0).val / 512 * 512 ≤ (i 0).val ∧ (i 0).val < (i 0).val / 512 * 512 + 512; omega
  | ⟨1, _⟩ =>
    show win4_3.index ⟨(i 0).val / 512, hN⟩ (1 : Fin 2) * 2048 ≤ (i 1).val ∧ (i 1).val < win4_3.index ⟨(i 0).val / 512, hN⟩ (1 : Fin 2) * 2048 + 2048
    rw [e31]; omega

end Cert.KernelIdeal.Layers

end
-- ==== Proof.DotOutput.lean ====
/-
  The matrix product a kernel body performs on its block of 512 input rows, read at one entry, and the bias as the body
  spreads it over the block. Weight matrix: 512 rows of length 2560.

  The body multiplies its 512 × 2560 block of input rows by the weight matrix, contracting the LAST axis of both, into a
  zero accumulator: entry `(p, q)` of the product is `∑ k, x p k * w q k`, row `p` of the block against row `q` of the
  weights. Four facts about the dimension record's operand indices (the left index is `(p, k)`, the right one `(q, k)`)
  turn the record's own sum over its contracted axis into the sum over `k : Fin 2560`. The bias vector is made a one-row
  matrix and that row repeated down the block, so entry `(p, q)` of what is added is `b q`.
-/
import proofs.«151112_j81827716924021_1_alg».proof.Proof.Gen.KernelIdeal
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx

namespace Cert.KernelIdeal.Layers

open Cert.KernelIdeal Cert.KernelIdeal.Gen

/-! ## The product read at an entry, and the bias as the body spreads it -/

theorem lhs_out_0 (i : S512x512.Idx) (q : dot_S512x2560_S512x2560_S512x512_1_1_0_0_n_n.contr.Idx) :
    (dot_S512x2560_S512x2560_S512x512_1_1_0_0_n_n.lhsIdx i q 0).val = (i 0).val := by
  unfold DotDims.lhsIdx
  rw [dif_neg (show ¬(0 : Fin S512x2560.rank) ∈ dot_S512x2560_S512x2560_S512x512_1_1_0_0_n_n.lhsBatch by decide), dif_pos (show (0 : Fin S512x2560.rank) ∈ dot_S512x2560_S512x2560_S512x512_1_1_0_0_n_n.lhsNonContracting by decide)]
  rfl
theorem lhs_out_1 (i : S512x512.Idx) (q : dot_S512x2560_S512x2560_S512x512_1_1_0_0_n_n.contr.Idx) :
    (dot_S512x2560_S512x2560_S512x512_1_1_0_0_n_n.lhsIdx i q 1).val = (q ⟨0, by decide⟩).val :=
  dot_S512x2560_S512x2560_S512x512_1_1_0_0_n_n.lhsIdx_val_of_single rfl i q
theorem rhs_out_0 (i : S512x512.Idx) (q : dot_S512x2560_S512x2560_S512x512_1_1_0_0_n_n.contr.Idx) :
    (dot_S512x2560_S512x2560_S512x512_1_1_0_0_n_n.rhsIdx i q 0).val = (i 1).val := by
  unfold DotDims.rhsIdx
  rw [dif_neg (show ¬(0 : Fin S512x2560.rank) ∈ dot_S512x2560_S512x2560_S512x512_1_1_0_0_n_n.rhsBatch by decide), dif_pos (show (0 : Fin S512x2560.rank) ∈ dot_S512x2560_S512x2560_S512x512_1_1_0_0_n_n.rhsNonContracting by decide)]
  rfl
theorem rhs_out_1 (i : S512x512.Idx) (q : dot_S512x2560_S512x2560_S512x512_1_1_0_0_n_n.contr.Idx) :
    (dot_S512x2560_S512x2560_S512x512_1_1_0_0_n_n.rhsIdx i q 1).val = (q ⟨0, by decide⟩).val :=
  dot_S512x2560_S512x2560_S512x512_1_1_0_0_n_n.rhsIdx_val_of_single rfl i q

/-- Into the zero accumulator the block product's entry `(p, q)` is row `p` of the left block against row `q` of the right. -/
theorem matmul_out_apply (x : FVec Ideal S512x2560 .bf16) (w : FVec Ideal S512x2560 .bf16) (p : Fin 512) (q : Fin 512) :
    matmul (F := Ideal) dot_S512x2560_S512x2560_S512x512_1_1_0_0_n_n none x w (constant (F := Ideal) S512x512 .f32 0x00000000#32) (ix2 p q)
      = ∑ k : Fin 2560, x (ix2 p k) * w (ix2 q k) := by
  simp only [matmul]
  rw [Ideal.matmul_constant_zero_apply, ← Equiv.sum_comp (ValueIdx.contrEquiv1 dot_S512x2560_S512x2560_S512x512_1_1_0_0_n_n 2560 rfl rfl).symm]
  refine Finset.sum_congr rfl fun k _ => ?_
  have hk := ValueIdx.contrEquiv1_symm_val dot_S512x2560_S512x2560_S512x512_1_1_0_0_n_n 2560 rfl rfl k
  have el : dot_S512x2560_S512x2560_S512x512_1_1_0_0_n_n.lhsIdx (ix2 p q) ((ValueIdx.contrEquiv1 dot_S512x2560_S512x2560_S512x512_1_1_0_0_n_n 2560 rfl rfl).symm k) = ix2 p k := funext fun a => Fin.ext (by
    match a with
    | ⟨0, _⟩ => exact lhs_out_0 _ _
    | ⟨1, _⟩ => exact (lhs_out_1 _ _).trans hk)
  have er : dot_S512x2560_S512x2560_S512x512_1_1_0_0_n_n.rhsIdx (ix2 p q) ((ValueIdx.contrEquiv1 dot_S512x2560_S512x2560_S512x512_1_1_0_0_n_n 2560 rfl rfl).symm k) = ix2 q k := funext fun a => Fin.ext (by
    match a with
    | ⟨0, _⟩ => exact rhs_out_0 _ _
    | ⟨1, _⟩ => exact (rhs_out_1 _ _).trans hk)
  rw [el, er]

/-- The bias as the body spreads it: the vector made a one-row matrix and that row repeated down the block. -/
theorem bias_out_apply (b : FVec Ideal S512 .f32) (p : Fin 512) (q : Fin 512) :
    broadcastTo S512x512 (shapeCast S1x512 b shapeCasts_S512_S1x512) broadcasts_S1x512_S512x512 (ix2 p q)
      = b (ix1 q) := by
  rw [broadcastTo_1b_ab_apply, shapeCast_a_1a_apply]

end Cert.KernelIdeal.Layers

end
-- ==== Proof.Region5.lean ====
/-
  Region 5 of the kernel program: the output head. Its output array, once every grid point has written its block back,
  is the plain affine layer of the three arrays the region reads — whatever those arrays hold when the region is entered.

  The grid has eight points; point `t` reads rows `512 t … 512 t + 511` of the trunk's output, the whole 512 × 2560 weight
  matrix and the whole bias of length 512, and writes rows `512 t … 512 t + 511` of the 4096 × 512 result. Entry `(p, q)` of
  the block it writes is `(∑ k, x p k * w q k) + b q` over the block's own rows, which is entry `(512 t + p, q)` of the
  layer on the whole matrix. The eight blocks tile the 4096 rows.
-/
import proofs.«151112_j81827716924021_1_alg».proof.Proof.Gen.KernelIdeal.Frame
import proofs.«151112_j81827716924021_1_alg».proof.Proof.Spec
import proofs.«151112_j81827716924021_1_alg».proof.Proof.Offsets
import proofs.«151112_j81827716924021_1_alg».proof.Proof.DotOutput
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Layers

open Cert.KernelIdeal Cert.KernelIdeal.Gen

/-- What the body stores, at entry `(p, q)` of its block: the product's entry plus the bias, nothing after it. -/
theorem pay5_apply (x : Vec Ideal S512x2560 .bf16) (w : Vec Ideal S512x2560 .bf16) (b : Vec Ideal S512 .f32) (p : Fin 512) (q : Fin 512) :
    k5_pay1 (F := Ideal) x w b (ix2 p q) = (∑ k : Fin 2560, x (ix2 p k) * w (ix2 q k)) + b (ix1 q) := by
  unfold k5_pay1
  simp only [addf_apply, shapeCast_self, matmul_out_apply, bias_out_apply]

variable (V : (c : Dev nD) → (b : Ref sig .tc) → Buf (Elt Ideal) ((c : Thread nD τ).loc b))

/-- Which block of its array each window holds at point `t`: the input rows and the output rows move with the point, the
    weights and the bias are the whole arrays at every point. -/
theorem idx5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 1) = 0
    ∧ win5_3.index t (0 : Fin 2) = t.val ∧ win5_3.index t (1 : Fin 2) = 0 :=
  (by decide +kernel : ∀ t : Fin grid5.N, _)

/-- Row `p` of the input block at point `t` is row `512 t + p` of the input array. -/
theorem xblk5_apply (c : Dev nD) (t : Fin cfg5.N) (p : Fin 512) (k : Fin 2560) (r : Fin 4096) (hr : r.val = t.val * 512 + p.val) :
    iblk5 V c 0 t (ix2 p k) = V c (Pipeline.arrRef spec5 0) (ix2 r k) := by
  obtain ⟨e00, e01, -⟩ := idx5 t
  unfold iblk5
  rw [View.read_apply]
  show V c (Pipeline.arrRef spec5 0) (((cfg5.win 0).blk t).view.emb (ix2 p k)) = V c (Pipeline.arrRef spec5 0) (ix2 r k)
  refine congrArg (V c (Pipeline.arrRef spec5 0)) (funext fun a => Fin.ext ?_)
  match a with
  | ⟨0, _⟩ => show win5_0.index t (0 : Fin 2) * 512 + 1 * p.val = r.val; omega
  | ⟨1, _⟩ => show win5_0.index t (1 : Fin 2) * 2560 + 1 * k.val = k.val; omega

/-- The weight block at every point is the whole weight array. -/
theorem wblk5_apply (c : Dev nD) (t : Fin cfg5.N) (q : Fin 512) (k : Fin 2560) (o : Fin 512) (ho : o.val = q.val) :
    iblk5 V c 1 t (ix2 q k) = V c (Pipeline.arrRef spec5 1) (ix2 o k) := by
  obtain ⟨-, -, e10, e11, -⟩ := idx5 t
  unfold iblk5
  rw [View.read_apply]
  show V c (Pipeline.arrRef spec5 1) (((cfg5.win 1).blk t).view.emb (ix2 q k)) = V c (Pipeline.arrRef spec5 1) (ix2 o k)
  refine congrArg (V c (Pipeline.arrRef spec5 1)) (funext fun a => Fin.ext ?_)
  match a with
  | ⟨0, _⟩ => show win5_1.index t (0 : Fin 2) * 512 + 1 * q.val = o.val; omega
  | ⟨1, _⟩ => show win5_1.index t (1 : Fin 2) * 2560 + 1 * k.val = k.val; omega

/-- The bias block at every point is the whole bias. -/
theorem bblk5_apply (c : Dev nD) (t : Fin cfg5.N) (q : Fin 512) (o : Fin 512) (ho : o.val = q.val) :
    iblk5 V c 2 t (ix1 q) = V c (Pipeline.arrRef spec5 2) (ix1 o) := by
  obtain ⟨-, -, -, -, e20, -⟩ := idx5 t
  unfold iblk5
  rw [View.read_apply]
  show V c (Pipeline.arrRef spec5 2) (((cfg5.win 2).blk t).view.emb (ix1 q)) = V c (Pipeline.arrRef spec5 2) (ix1 o)
  refine congrArg (V c (Pipeline.arrRef spec5 2)) (funext fun a => Fin.ext ?_)
  match a with
  | ⟨0, _⟩ => show win5_2.index t (0 : Fin 1) * 512 + 1 * q.val = o.val; omega

/-- What point `t` writes back is block `t` of the layer of the arrays as the region finds them. -/
theorem flushed5 (c : Dev nD) (t : Fin cfg5.N) :
    (dat5 (F := Ideal) V c).flushed 3 t = ((cfg5.win 3).blk t).view.read (Elt Ideal)
      (Mlp.affine (M := 4096) (N := 512) (K := 2560) (V c (Pipeline.arrRef spec5 0)) (V c (Pipeline.arrRef spec5 1)) (V c (Pipeline.arrRef spec5 2))) := by
  show (cfg5.win 3).cut (grid5.coords t) ((dat5 V c).after 3 t) = _
  rw [after5_3]
  unfold out5_3
  rw [View.canon_unit_zero zero2]
  simp only [View.ld_unit_zero (S := S512x2560) zero2, View.ld_unit_zero (S := S512) zero1]
  obtain ⟨e00, e01, e10, e11, e20, e30, e31⟩ := idx5 t
  funext j
  obtain ⟨p, q, rfl⟩ : ∃ (p : Fin 512) (q : Fin 512), j = ix2 p q := ⟨j 0, j 1, eq_ix2 j⟩
  refine (pay5_apply (iblk5 V c 0 t) (iblk5 V c 1 t) (iblk5 V c 2 t) p q).trans ?_
  show _ = Mlp.affine (M := 4096) (N := 512) (K := 2560) (V c (Pipeline.arrRef spec5 0)) (V c (Pipeline.arrRef spec5 1)) (V c (Pipeline.arrRef spec5 2))
    (((View.whole main_v30).slice ((win5 3).rect t)).emb (ix2 p q))
  unfold Mlp.affine
  have h0 : ((((View.whole main_v30).slice ((win5 3).rect t)).emb (ix2 p q)) 0).val = t.val * 512 + p.val := by
    show win5_3.index t (0 : Fin 2) * 512 + 1 * p.val = _; omega
  have h1 : ((((View.whole main_v30).slice ((win5 3).rect t)).emb (ix2 p q)) 1).val = q.val := by
    show win5_3.index t (1 : Fin 2) * 512 + 1 * q.val = _; omega
  refine congr (congrArg HAdd.hAdd (Finset.sum_congr rfl fun k _ => ?_)) ?_
  · exact congr (congrArg HMul.hMul (xblk5_apply V c t p k _ h0)) (wblk5_apply V c t q k _ h1)
  · exact bblk5_apply V c t q _ h1

/-- The output head's array after the region: every row is in the block of the point `row / 512`. -/
theorem region5_array (c : Dev nD) :
    (dat5 (F := Ideal) V c).arrAt 3 cfg5.N
      = Mlp.affine (M := 4096) (N := 512) (K := 2560) (V c (Pipeline.arrRef spec5 0)) (V c (Pipeline.arrRef spec5 1)) (V c (Pipeline.arrRef spec5 2)) := by
  refine (dat5 (F := Ideal) V c).arrAt_eq_of_cover 3 _ (fun t _ => flushed5 V c t) fun i => ?_
  have hi0 : (i 0).val < 4096 := (i 0).isLt
  have hi1 : (i 1).val < 512 := (i 1).isLt
  have hN : (i 0).val / 512 < cfg5.N := by rw [show cfg5.N = 8 from N_5]; omega
  obtain ⟨-, -, -, -, -, e30, e31⟩ := idx5 ⟨(i 0).val / 512, hN⟩
  refine ⟨⟨(i 0).val / 512, hN⟩, flush5_3 _, ?_⟩
  show i ∈ ((View.whole main_v30).slice (win5_3.rect ⟨(i 0).val / 512, hN⟩)).set
  rw [View.set_slice_whole, Rect.mem_set_unit]
  intro a
  match a with
  | ⟨0, _⟩ =>
    show win5_3.index ⟨(i 0).val / 512, hN⟩ (0 : Fin 2) * 512 ≤ (i 0).val ∧ (i 0).val < win5_3.index ⟨(i 0).val / 512, hN⟩ (0 : Fin 2) * 512 + 512
    rw [e30]; show (i 0).val / 512 * 512 ≤ (i 0).val ∧ (i 0).val < (i 0).val / 512 * 512 + 512; omega
  | ⟨1, _⟩ =>
    show win5_3.index ⟨(i 0).val / 512, hN⟩ (1 : Fin 2) * 512 ≤ (i 1).val ∧ (i 1).val < win5_3.index ⟨(i 0).val / 512, hN⟩ (1 : Fin 2) * 512 + 512
    rw [e31]; omega

end Cert.KernelIdeal.Layers

end
-- ==== Proof.KernelChain.lean ====
/-
  The kernel program's run read back to the launch memory.

  The program is six kernel regions among six stretches of host operations. The contents of every buffer at each of the
  twelve segment boundaries are a fold from the launch memory: a host stretch rewrites the buffers its operations write,
  a region leaves in each of its arrays what its write-backs leave and every other buffer as it was. The run ends with
  the two result arrays at the last boundary's contents.

  Here that fold is walked, for the two result arrays, back to the launch arrays. Over the extended reals a change of
  format is the identity, so the chain is: the input is the two input arrays side by side; region `l` (`l = 0 … 3`)
  reads the trunk so far, layer `l`'s slice of the stacked weights and of the stacked biases, and leaves the next stage
  of the trunk; region 4 reads the finished trunk and the hidden head's parameters and leaves the hidden head; region 5
  reads the same trunk and the output head's parameters and leaves the output head. What each region leaves, for any
  contents it is entered from, is the statement of its own module; this module names the contents each is entered from.
-/
import proofs.«151112_j81827716924021_1_alg».proof.Proof.Gen.KernelIdeal.Frame
import proofs.«151112_j81827716924021_1_alg».proof.Proof.Spec
import proofs.«151112_j81827716924021_1_alg».proof.Proof.KernelRun
import proofs.«151112_j81827716924021_1_alg».proof.Proof.Region0
import proofs.«151112_j81827716924021_1_alg».proof.Proof.Region1
import proofs.«151112_j81827716924021_1_alg».proof.Proof.Region2
import proofs.«151112_j81827716924021_1_alg».proof.Proof.Region3
import proofs.«151112_j81827716924021_1_alg».proof.Proof.Region4
import proofs.«151112_j81827716924021_1_alg».proof.Proof.Region5
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Chain

open Cert.KernelIdeal Cert.KernelIdeal.Gen Cert.KernelIdeal.Layers

variable (m : (ℓ : Loc nD τ sig) → Buf (Elt Ideal) ℓ) (ρ : Dev nD → PrngReg)

/-! ## The launch arrays at their literal types, and the trunk stage by stage -/

/-- The network's input: the two input arrays side by side, `x` in columns `0 … 511` and `h` in columns `512 … 2559`. -/
abbrev X0 (m : (ℓ : Loc nD τ sig) → Buf (Elt Ideal) ℓ) (c : Dev nD) : Mlp.Mat 4096 2560 :=
  concatenate S4096x2560 1 [⟨S4096x512, m ((c.tc : Thread nD τ).loc main_arg0)⟩, ⟨S4096x2048, m ((c.tc : Thread nD τ).loc main_arg1)⟩] concatenates_S4096x512_S4096x2048_S4096x2560_d1
/-- The stacked layer weights as launched. -/
abbrev aW (c : Dev nD) : Mlp.Stack 4 2560 2560 := m ((c.tc : Thread nD τ).loc main_arg2)
/-- The stacked layer biases as launched. -/
abbrev aB (c : Dev nD) : Mlp.Mat 4 2560 := m ((c.tc : Thread nD τ).loc main_arg3)
/-- The hidden head's weights and bias, and the output head's, as launched. -/
abbrev aWh (c : Dev nD) : Mlp.Mat 2048 2560 := m ((c.tc : Thread nD τ).loc main_arg4)
abbrev abh (c : Dev nD) : Mlp.Vc 2048 := m ((c.tc : Thread nD τ).loc main_arg5)
abbrev aWo (c : Dev nD) : Mlp.Mat 512 2560 := m ((c.tc : Thread nD τ).loc main_arg6)
abbrev abo (c : Dev nD) : Mlp.Vc 512 := m ((c.tc : Thread nD τ).loc main_arg7)

/-- The trunk after one, two, three and four layers. -/
def T1 (c : Dev nD) : Mlp.Mat 4096 2560 := Mlp.reluLayer (X0 m c) (Mlp.wAt (aW m c) 0) (Mlp.bAt (aB m c) 0)
def T2 (c : Dev nD) : Mlp.Mat 4096 2560 := Mlp.reluLayer (T1 m c) (Mlp.wAt (aW m c) 1) (Mlp.bAt (aB m c) 1)
def T3 (c : Dev nD) : Mlp.Mat 4096 2560 := Mlp.reluLayer (T2 m c) (Mlp.wAt (aW m c) 2) (Mlp.bAt (aB m c) 2)
def T4 (c : Dev nD) : Mlp.Mat 4096 2560 := Mlp.reluLayer (T3 m c) (Mlp.wAt (aW m c) 3) (Mlp.bAt (aB m c) 3)
theorem T4_eq (c : Dev nD) : T4 m c = Mlp.trunk (X0 m c) (aW m c) (aB m c) := rfl

/-! ## A layer's slice of a stacked array

The host cuts layer `l` out of the stack as the unit-thick slab at offset `l` along the first axis and then drops that
axis. Entry `(r, k)` of the result is entry `(0, r, k)` of the slab, which is entry `(l, r, k)` of the stack. -/

theorem wslice_eq (W : Mlp.Stack 4 2560 2560) (l : Fin 4) (off : Fin 3 → ℕ) (h0 : off 0 = l.val) (h1 : off 1 = 0) (h2 : off 2 = 0)
    (hs : S4x2560x2560.Slices off S1x2560x2560) (hc : S1x2560x2560.ShapeCasts S2560x2560) :
    shapeCast S2560x2560 (extractStridedSlice S1x2560x2560 off W hs) hc = Mlp.wAt W l := by
  funext i
  obtain ⟨r, k, rfl⟩ : ∃ r k : Fin 2560, i = ix2 r k := ⟨i 0, i 1, eq_ix2 i⟩
  rw [shapeCast_1ab_ab_apply, extractStridedSlice_apply off W hs _ (ix3 l r k) (fun a => by
    match a with
    | ⟨0, _⟩ => show l.val = off 0 + 0; omega
    | ⟨1, _⟩ => show r.val = off 1 + r.val; omega
    | ⟨2, _⟩ => show k.val = off 2 + k.val; omega)]
  rfl

theorem bslice_eq (B : Mlp.Mat 4 2560) (l : Fin 4) (off : Fin 2 → ℕ) (h0 : off 0 = l.val) (h1 : off 1 = 0)
    (hs : S4x2560.Slices off S1x2560) (hc : S1x2560.ShapeCasts S2560) :
    shapeCast S2560 (extractStridedSlice S1x2560 off B hs) hc = Mlp.bAt B l := by
  funext i
  obtain ⟨k, rfl⟩ : ∃ k : Fin 2560, i = ix1 k := ⟨i 0, eq_ix1 i⟩
  rw [shapeCast_1a_a_apply, extractStridedSlice_apply off B hs _ (ix2 l k) (fun a => by
    match a with
    | ⟨0, _⟩ => show l.val = off 0 + 0; omega
    | ⟨1, _⟩ => show k.val = off 1 + k.val; omega)]
  rfl

/-- A buffer that no operation of a host stretch writes holds after the stretch what it held before. -/
local macro "unwritten " ops:ident : tactic => `(tactic|
  exact StableHlo.after_of_forall_not_mem _ _ (List.forall_iff_forall_mem.mp (by
    simp only [$ops:ident, List.Forall, StableHlo.unary_writes, StableHlo.binary_writes, StableHlo.reshape_writes, Finset.mem_singleton]
    repeat' apply And.intro
    all_goals exact StableHlo.devRef_ne_of_ne (by decide))))

/-! ## The stacked weights in the narrow format (main_v2) and the stacked biases, boundary by boundary

The first host stretch writes main_v2, the stacked weights passed through the change of format, which over the extended
reals is the identity. No region owns it and no later stretch writes it; the stretches before regions 1, 2 and 3 read it.
The stacked biases are an argument, read by the same stretches. -/

theorem W1_v2 (c : Dev nD) : (W1 m ρ c (Proc.devRef .tc main_v2) : Mlp.Stack 4 2560 2560) = aW m c := by
  show StableHlo.after hostOps0 _ (Proc.devRef .tc main_v2) = _
  after_results
  rfl
theorem W2_v2 (c : Dev nD) : (W2 m ρ c (Proc.devRef .tc main_v2) : Mlp.Stack 4 2560 2560) = aW m c :=
  (W2_of_ne m ρ c main_v2 (by decide)).trans (W1_v2 m ρ c)
theorem W3_v2 (c : Dev nD) : (W3 m ρ c (Proc.devRef .tc main_v2) : Mlp.Stack 4 2560 2560) = aW m c :=
  (show W3 m ρ c (Proc.devRef .tc main_v2) = W2 m ρ c (Proc.devRef .tc main_v2) by unwritten hostOps1).trans (W2_v2 m ρ c)
theorem W4_v2 (c : Dev nD) : (W4 m ρ c (Proc.devRef .tc main_v2) : Mlp.Stack 4 2560 2560) = aW m c :=
  (W4_of_ne m ρ c main_v2 (by decide)).trans (W3_v2 m ρ c)
theorem W5_v2 (c : Dev nD) : (W5 m ρ c (Proc.devRef .tc main_v2) : Mlp.Stack 4 2560 2560) = aW m c :=
  (show W5 m ρ c (Proc.devRef .tc main_v2) = W4 m ρ c (Proc.devRef .tc main_v2) by unwritten hostOps2).trans (W4_v2 m ρ c)
theorem W6_v2 (c : Dev nD) : (W6 m ρ c (Proc.devRef .tc main_v2) : Mlp.Stack 4 2560 2560) = aW m c :=
  (W6_of_ne m ρ c main_v2 (by decide)).trans (W5_v2 m ρ c)

theorem W1_arg3 (c : Dev nD) : (W1 m ρ c (Proc.devRef .tc main_arg3) : Mlp.Mat 4 2560) = aB m c :=
  show W1 m ρ c (Proc.devRef .tc main_arg3) = W0 m ρ c (Proc.devRef .tc main_arg3) by unwritten hostOps0
theorem W2_arg3 (c : Dev nD) : (W2 m ρ c (Proc.devRef .tc main_arg3) : Mlp.Mat 4 2560) = aB m c :=
  (W2_of_ne m ρ c main_arg3 (by decide)).trans (W1_arg3 m ρ c)
theorem W3_arg3 (c : Dev nD) : (W3 m ρ c (Proc.devRef .tc main_arg3) : Mlp.Mat 4 2560) = aB m c :=
  (show W3 m ρ c (Proc.devRef .tc main_arg3) = W2 m ρ c (Proc.devRef .tc main_arg3) by unwritten hostOps1).trans (W2_arg3 m ρ c)
theorem W4_arg3 (c : Dev nD) : (W4 m ρ c (Proc.devRef .tc main_arg3) : Mlp.Mat 4 2560) = aB m c :=
  (W4_of_ne m ρ c main_arg3 (by decide)).trans (W3_arg3 m ρ c)
theorem W5_arg3 (c : Dev nD) : (W5 m ρ c (Proc.devRef .tc main_arg3) : Mlp.Mat 4 2560) = aB m c :=
  (show W5 m ρ c (Proc.devRef .tc main_arg3) = W4 m ρ c (Proc.devRef .tc main_arg3) by unwritten hostOps2).trans (W4_arg3 m ρ c)
theorem W6_arg3 (c : Dev nD) : (W6 m ρ c (Proc.devRef .tc main_arg3) : Mlp.Mat 4 2560) = aB m c :=
  (W6_of_ne m ρ c main_arg3 (by decide)).trans (W5_arg3 m ρ c)

/-! ## Layer 1: region 0, entered after the first host stretch -/

theorem V1_v1 (c : Dev nD) : (V1 m ρ c main_v1 : Mlp.Mat 4096 2560) = X0 m c := by
  show StableHlo.after hostOps0 _ (Proc.devRef .tc main_v1) = _
  after_results
  rfl
theorem V1_v4 (c : Dev nD) : (V1 m ρ c main_v4 : Mlp.Mat 2560 2560) = Mlp.wAt (aW m c) 0 := by
  show StableHlo.after hostOps0 _ (Proc.devRef .tc main_v4) = _
  after_results
  exact wslice_eq (aW m c) 0 _ rfl rfl rfl _ _
theorem V1_v6 (c : Dev nD) : (V1 m ρ c main_v6 : Mlp.Vc 2560) = Mlp.bAt (aB m c) 0 := by
  show StableHlo.after hostOps0 _ (Proc.devRef .tc main_v6) = _
  after_results
  exact bslice_eq (aB m c) 0 _ rfl rfl _ _
theorem W2_v7 (c : Dev nD) : (W2 m ρ c (Proc.devRef .tc main_v7) : Mlp.Mat 4096 2560) = T1 m c := by
  refine (W2_arr m ρ c 3).trans ((region0_array (V1 m ρ) c).trans ?_)
  show Mlp.reluLayer (V1 m ρ c main_v1 : Mlp.Mat 4096 2560) (V1 m ρ c main_v4 : Mlp.Mat 2560 2560) (V1 m ρ c main_v6 : Mlp.Vc 2560) = _
  rw [V1_v1, V1_v4, V1_v6]; rfl

/-! ## Layer 2: region 1 -/

theorem V3_v8 (c : Dev nD) : (V3 m ρ c main_v8 : Mlp.Mat 4096 2560) = T1 m c := by
  show StableHlo.after hostOps1 _ (Proc.devRef .tc main_v8) = _
  after_results
  exact W2_v7 m ρ c
theorem V3_v10 (c : Dev nD) : (V3 m ρ c main_v10 : Mlp.Mat 2560 2560) = Mlp.wAt (aW m c) 1 := by
  show StableHlo.after hostOps1 _ (Proc.devRef .tc main_v10) = _
  after_results
  show shapeCast S2560x2560 (extractStridedSlice S1x2560x2560 ![1, 0, 0] (W2 m ρ c (Proc.devRef .tc main_v2) : Mlp.Stack 4 2560 2560) slices_S4x2560x2560_S1x2560x2560_1_0_0) shapeCasts_S1x2560x2560_S2560x2560 = _
  rw [W2_v2]
  exact wslice_eq (aW m c) 1 _ rfl rfl rfl _ _
theorem V3_v12 (c : Dev nD) : (V3 m ρ c main_v12 : Mlp.Vc 2560) = Mlp.bAt (aB m c) 1 := by
  show StableHlo.after hostOps1 _ (Proc.devRef .tc main_v12) = _
  after_results
  show shapeCast S2560 (extractStridedSlice S1x2560 ![1, 0] (W2 m ρ c (Proc.devRef .tc main_arg3) : Mlp.Mat 4 2560) slices_S4x2560_S1x2560_1_0) shapeCasts_S1x2560_S2560 = _
  rw [W2_arg3]
  exact bslice_eq (aB m c) 1 _ rfl rfl _ _
theorem W4_v13 (c : Dev nD) : (W4 m ρ c (Proc.devRef .tc main_v13) : Mlp.Mat 4096 2560) = T2 m c := by
  refine (W4_arr m ρ c 3).trans ((region1_array (V3 m ρ) c).trans ?_)
  show Mlp.reluLayer (V3 m ρ c main_v8 : Mlp.Mat 4096 2560) (V3 m ρ c main_v10 : Mlp.Mat 2560 2560) (V3 m ρ c main_v12 : Mlp.Vc 2560) = _
  rw [V3_v8, V3_v10, V3_v12]; rfl

/-! ## Layer 3: region 2 -/

theorem V5_v14 (c : Dev nD) : (V5 m ρ c main_v14 : Mlp.Mat 4096 2560) = T2 m c := by
  show StableHlo.after hostOps2 _ (Proc.devRef .tc main_v14) = _
  after_results
  exact W4_v13 m ρ c
theorem V5_v16 (c : Dev nD) : (V5 m ρ c main_v16 : Mlp.Mat 2560 2560) = Mlp.wAt (aW m c) 2 := by
  show StableHlo.after hostOps2 _ (Proc.devRef .tc main_v16) = _
  after_results
  show shapeCast S2560x2560 (extractStridedSlice S1x2560x2560 ![2, 0, 0] (W4 m ρ c (Proc.devRef .tc main_v2) : Mlp.Stack 4 2560 2560) slices_S4x2560x2560_S1x2560x2560_2_0_0) shapeCasts_S1x2560x2560_S2560x2560 = _
  rw [W4_v2]
  exact wslice_eq (aW m c) 2 _ rfl rfl rfl _ _
theorem V5_v18 (c : Dev nD) : (V5 m ρ c main_v18 : Mlp.Vc 2560) = Mlp.bAt (aB m c) 2 := by
  show StableHlo.after hostOps2 _ (Proc.devRef .tc main_v18) = _
  after_results
  show shapeCast S2560 (extractStridedSlice S1x2560 ![2, 0] (W4 m ρ c (Proc.devRef .tc main_arg3) : Mlp.Mat 4 2560) slices_S4x2560_S1x2560_2_0) shapeCasts_S1x2560_S2560 = _
  rw [W4_arg3]
  exact bslice_eq (aB m c) 2 _ rfl rfl _ _
theorem W6_v19 (c : Dev nD) : (W6 m ρ c (Proc.devRef .tc main_v19) : Mlp.Mat 4096 2560) = T3 m c := by
  refine (W6_arr m ρ c 3).trans ((region2_array (V5 m ρ) c).trans ?_)
  show Mlp.reluLayer (V5 m ρ c main_v14 : Mlp.Mat 4096 2560) (V5 m ρ c main_v16 : Mlp.Mat 2560 2560) (V5 m ρ c main_v18 : Mlp.Vc 2560) = _
  rw [V5_v14, V5_v16, V5_v18]; rfl

/-! ## Layer 4: region 3 -/

theorem V7_v20 (c : Dev nD) : (V7 m ρ c main_v20 : Mlp.Mat 4096 2560) = T3 m c := by
  show StableHlo.after hostOps3 _ (Proc.devRef .tc main_v20) = _
  after_results
  exact W6_v19 m ρ c
theorem V7_v22 (c : Dev nD) : (V7 m ρ c main_v22 : Mlp.Mat 2560 2560) = Mlp.wAt (aW m c) 3 := by
  show StableHlo.after hostOps3 _ (Proc.devRef .tc main_v22) = _
  after_results
  show shapeCast S2560x2560 (extractStridedSlice S1x2560x2560 ![3, 0, 0] (W6 m ρ c (Proc.devRef .tc main_v2) : Mlp.Stack 4 2560 2560) slices_S4x2560x2560_S1x2560x2560_3_0_0) shapeCasts_S1x2560x2560_S2560x2560 = _
  rw [W6_v2]
  exact wslice_eq (aW m c) 3 _ rfl rfl rfl _ _
theorem V7_v24 (c : Dev nD) : (V7 m ρ c main_v24 : Mlp.Vc 2560) = Mlp.bAt (aB m c) 3 := by
  show StableHlo.after hostOps3 _ (Proc.devRef .tc main_v24) = _
  after_results
  show shapeCast S2560 (extractStridedSlice S1x2560 ![3, 0] (W6 m ρ c (Proc.devRef .tc main_arg3) : Mlp.Mat 4 2560) slices_S4x2560_S1x2560_3_0) shapeCasts_S1x2560_S2560 = _
  rw [W6_arg3]
  exact bslice_eq (aB m c) 3 _ rfl rfl _ _
theorem W8_v25 (c : Dev nD) : (W8 m ρ c (Proc.devRef .tc main_v25) : Mlp.Mat 4096 2560) = T4 m c := by
  refine (W8_arr m ρ c 3).trans ((region3_array (V7 m ρ) c).trans ?_)
  show Mlp.reluLayer (V7 m ρ c main_v20 : Mlp.Mat 4096 2560) (V7 m ρ c main_v22 : Mlp.Mat 2560 2560) (V7 m ρ c main_v24 : Mlp.Vc 2560) = _
  rw [V7_v20, V7_v22, V7_v24]; rfl

/-! ## The heads' parameters at the boundaries where they are read

Each is an argument, so the last boundary holds it as launched; from the last boundary back to the one where it is read,
no host stretch writes it and a region either does not own it or reads it through an input window, which the region
leaves as it found it. -/

theorem W8_arg4 (c : Dev nD) : (W8 m ρ c (Proc.devRef .tc main_arg4) : Mlp.Mat 2048 2560) = aWh m c :=
  ((W12_of_ne m ρ c main_arg4 (by decide)).trans
    ((show W11 m ρ c (Proc.devRef .tc main_arg4) = W10 m ρ c (Proc.devRef .tc main_arg4) by unwritten hostOps5).trans
      ((W10_of_ne m ρ c main_arg4 (by decide)).trans
        (show W9 m ρ c (Proc.devRef .tc main_arg4) = W8 m ρ c (Proc.devRef .tc main_arg4) by unwritten hostOps4)))).symm.trans
    (W12_main_arg4 m ρ c)
theorem W9_arg5 (c : Dev nD) : (W9 m ρ c (Proc.devRef .tc main_arg5) : Mlp.Vc 2048) = abh m c :=
  ((W12_of_ne m ρ c main_arg5 (by decide)).trans
    ((show W11 m ρ c (Proc.devRef .tc main_arg5) = W10 m ρ c (Proc.devRef .tc main_arg5) by unwritten hostOps5).trans
      ((W10_arr m ρ c 2).trans (((dat4 (V9 m ρ) c).arrAt_in 2 rfl _).trans (A_eq4 (V9 m ρ) c 2))))).symm.trans
    (W12_main_arg5 m ρ c)
theorem W10_arg6 (c : Dev nD) : (W10 m ρ c (Proc.devRef .tc main_arg6) : Mlp.Mat 512 2560) = aWo m c :=
  ((W12_of_ne m ρ c main_arg6 (by decide)).trans
    (show W11 m ρ c (Proc.devRef .tc main_arg6) = W10 m ρ c (Proc.devRef .tc main_arg6) by unwritten hostOps5)).symm.trans
    (W12_main_arg6 m ρ c)
theorem W11_arg7 (c : Dev nD) : (W11 m ρ c (Proc.devRef .tc main_arg7) : Mlp.Vc 512) = abo m c :=
  ((W12_arr m ρ c 2).trans (((dat5 (V11 m ρ) c).arrAt_in 2 rfl _).trans (A_eq5 (V11 m ρ) c 2))).symm.trans
    (W12_main_arg7 m ρ c)

/-! ## The hidden head: region 4 -/

theorem V9_v26 (c : Dev nD) : (V9 m ρ c main_v26 : Mlp.Mat 4096 2560) = T4 m c := by
  show StableHlo.after hostOps4 _ (Proc.devRef .tc main_v26) = _
  after_results
  exact W8_v25 m ρ c
theorem V9_v27 (c : Dev nD) : (V9 m ρ c main_v27 : Mlp.Mat 2048 2560) = aWh m c := by
  show StableHlo.after hostOps4 _ (Proc.devRef .tc main_v27) = _
  after_results
  exact W8_arg4 m ρ c
theorem W10_v28 (c : Dev nD) : (W10 m ρ c (Proc.devRef .tc main_v28) : Mlp.Mat 4096 2048)
    = Mlp.hidden (X0 m c) (aW m c) (aB m c) (aWh m c) (abh m c) := by
  refine (W10_arr m ρ c 3).trans ((region4_array (V9 m ρ) c).trans ?_)
  show Mlp.tanhLayer (V9 m ρ c main_v26 : Mlp.Mat 4096 2560) (V9 m ρ c main_v27 : Mlp.Mat 2048 2560) (V9 m ρ c main_arg5 : Mlp.Vc 2048) = _
  rw [V9_v26, V9_v27, show (V9 m ρ c main_arg5 : Mlp.Vc 2048) = abh m c from W9_arg5 m ρ c]; rfl
/-- The hidden head's array is not touched again: the last host stretch does not write it and region 5 does not own it. -/
theorem W12_v28 (c : Dev nD) : (W12 m ρ c (Proc.devRef .tc main_v28) : Mlp.Mat 4096 2048)
    = Mlp.hidden (X0 m c) (aW m c) (aB m c) (aWh m c) (abh m c) :=
  (W12_of_ne m ρ c main_v28 (by decide)).trans
    ((show W11 m ρ c (Proc.devRef .tc main_v28) = W10 m ρ c (Proc.devRef .tc main_v28) by unwritten hostOps5).trans (W10_v28 m ρ c))

/-! ## The output head: region 5

Its input rows are the trunk in the narrow format, the array region 4 read through its first input window: region 4
leaves it as it found it and the last host stretch does not write it. -/

theorem W10_v26 (c : Dev nD) : (W10 m ρ c (Proc.devRef .tc main_v26) : Mlp.Mat 4096 2560) = T4 m c :=
  ((W10_arr m ρ c 0).trans (((dat4 (V9 m ρ) c).arrAt_in 0 rfl _).trans (A_eq4 (V9 m ρ) c 0))).trans (V9_v26 m ρ c)
theorem V11_v26 (c : Dev nD) : (V11 m ρ c main_v26 : Mlp.Mat 4096 2560) = T4 m c :=
  (show W11 m ρ c (Proc.devRef .tc main_v26) = W10 m ρ c (Proc.devRef .tc main_v26) by unwritten hostOps5).trans (W10_v26 m ρ c)
theorem V11_v29 (c : Dev nD) : (V11 m ρ c main_v29 : Mlp.Mat 512 2560) = aWo m c := by
  show StableHlo.after hostOps5 _ (Proc.devRef .tc main_v29) = _
  after_results
  exact W10_arg6 m ρ c
theorem W12_v30 (c : Dev nD) : (W12 m ρ c (Proc.devRef .tc main_v30) : Mlp.Mat 4096 512)
    = Mlp.output (X0 m c) (aW m c) (aB m c) (aWo m c) (abo m c) := by
  refine (W12_arr m ρ c 3).trans ((region5_array (V11 m ρ) c).trans ?_)
  show Mlp.affine (V11 m ρ c main_v26 : Mlp.Mat 4096 2560) (V11 m ρ c main_v29 : Mlp.Mat 512 2560) (V11 m ρ c main_arg7 : Mlp.Vc 512) = _
  rw [V11_v26, V11_v29, show (V11 m ρ c main_arg7 : Mlp.Vc 512) = abo m c from W11_arg7 m ρ c]; rfl

/-! ## The run -/

/-- From any launch memory with zero counters every weakly fair execution of the kernel program terminates, nothing
    faulting; the two result arrays hold the output head and the hidden head of the network on the launch arrays, and
    the argument arrays are as launched. -/
theorem run_spec : θ_run defs (onTc (τ := τ) (main (F := Ideal))) ⟨m, fun _ => 0, ρ⟩ fun r => ∀ c : Dev nD,
      r.2.mem ((c.tc : Thread nD τ).loc main_v30) = Mlp.output (X0 m c) (m ((c.tc : Thread nD τ).loc main_arg2)) (m ((c.tc : Thread nD τ).loc main_arg3)) (m ((c.tc : Thread nD τ).loc main_arg6)) (m ((c.tc : Thread nD τ).loc main_arg7))
      ∧ r.2.mem ((c.tc : Thread nD τ).loc main_v28) = Mlp.hidden (X0 m c) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun r h c => ⟨(h c).1.trans (W12_v30 m ρ c), (h c).2.1.trans (W12_v28 m ρ c), (h c).2.2⟩) (KRun.run_W12 m ρ)

end Cert.KernelIdeal.Chain

end
-- ==== Proof.RefValue.lean ====
/-
  The reference program computes the network of `Spec.lean`.

  The concatenated input `X` goes through four layers `X ↦ max (X · W_lᵀ + b_l) 0`, where `W_l` and `b_l` are the
  `l`-th slices of the stacked weights and biases, and then through the two heads `tanh (X · W_hᵀ + b_h)` and
  `X · W_oᵀ + b_o`. Entry `(r, o)` of every product is `∑ k, X r k * W o k`: the contraction runs over the last axis of
  both operands. Each layer is read at an index `i = (r, o)`: the slice `[l : l + 1, :, :]` reshaped to a matrix reads
  the stack at `(l, o, k)` (the flat position `o * 2560 + k` splits back into `o` and `k` because `k < 2560`), and the
  bias, sliced, reshaped and broadcast along the rows, reads the stack of biases at `(l, o)`.
-/
import proofs.«151112_j81827716924021_1_alg».proof.Proof.Gen.ReferenceIdeal.Run
import proofs.«151112_j81827716924021_1_alg».proof.Proof.Gen.ReferenceIdeal.Read
import proofs.«151112_j81827716924021_1_alg».proof.Proof.Spec
import Idealize.ShloMosaic.Lib.ValueIdx
import Idealize.ShloMosaic.PureOps.Ideal

noncomputable section

namespace Cert.ReferenceIdeal.RefValue

open Cert.ReferenceIdeal Cert.ReferenceIdeal.Gen Idealize.ShloMosaic Idealize.ShloMosaic.TcCoe Idealize.SL.Sem Idealize.ShloMosaic.StableHlo
open Cert.ReferenceIdeal.Read Idealize.ShloMosaic.ValueIdx

/-! ## The indices the four square layers read

For the result entry `i = (r, o)` and the contraction coordinate `k`: the left operand is read at `(r, k)`; the weight
stack at `(l, o, k)`; the bias stack at `(l, o)`. -/

/-- Layer 0: the left operand at `(r, k)`. -/
theorem lidx0 (i : S4096x2560.Idx) (k : Fin 2560) : lidx_main_v3 i k = ix2 (i 0) k :=
  funext fun a => match a with | ⟨0, _⟩ => rfl | ⟨1, _⟩ => rfl
/-- Layer 1: the left operand at `(r, k)`. -/
theorem lidx1 (i : S4096x2560.Idx) (k : Fin 2560) : lidx_main_v12 i k = ix2 (i 0) k :=
  funext fun a => match a with | ⟨0, _⟩ => rfl | ⟨1, _⟩ => rfl
/-- Layer 2: the left operand at `(r, k)`. -/
theorem lidx2 (i : S4096x2560.Idx) (k : Fin 2560) : lidx_main_v21 i k = ix2 (i 0) k :=
  funext fun a => match a with | ⟨0, _⟩ => rfl | ⟨1, _⟩ => rfl
/-- Layer 3: the left operand at `(r, k)`. -/
theorem lidx3 (i : S4096x2560.Idx) (k : Fin 2560) : lidx_main_v30 i k = ix2 (i 0) k :=
  funext fun a => match a with | ⟨0, _⟩ => rfl | ⟨1, _⟩ => rfl

/-- Layer 0: the weight matrix at `(o, k)` is the stack at `(0, o, k)`; `(o * 2560 + k) / 2560 = o` and
    `(o * 2560 + k) % 2560 = k` since `k < 2560`. -/
theorem widx0 (i : S4096x2560.Idx) (k : Fin 2560) :
    idx_main_v1 (idx_main_v2 (ridx_main_v3 i k)) = ix3 (0 : Fin 4) (i 1) k :=
  funext fun a => Fin.ext (by
    have h1 : (i 1).val < 2560 := (i 1).isLt
    have hk : k.val < 2560 := k.isLt
    match a with
    | ⟨0, _⟩ => rfl
    | ⟨1, _⟩ => show ((i 1).val * 2560 + k.val) / 2560 % 2560 = (i 1).val; omega
    | ⟨2, _⟩ => show ((i 1).val * 2560 + k.val) % 2560 = k.val; omega)
/-- Layer 1: the weight matrix at `(o, k)` is the stack at `(1, o, k)`. -/
theorem widx1 (i : S4096x2560.Idx) (k : Fin 2560) :
    idx_main_v10 (idx_main_v11 (ridx_main_v12 i k)) = ix3 (1 : Fin 4) (i 1) k :=
  funext fun a => Fin.ext (by
    have h1 : (i 1).val < 2560 := (i 1).isLt
    have hk : k.val < 2560 := k.isLt
    match a with
    | ⟨0, _⟩ => rfl
    | ⟨1, _⟩ => show ((i 1).val * 2560 + k.val) / 2560 % 2560 = (i 1).val; omega
    | ⟨2, _⟩ => show ((i 1).val * 2560 + k.val) % 2560 = k.val; omega)
/-- Layer 2: the weight matrix at `(o, k)` is the stack at `(2, o, k)`. -/
theorem widx2 (i : S4096x2560.Idx) (k : Fin 2560) :
    idx_main_v19 (idx_main_v20 (ridx_main_v21 i k)) = ix3 (2 : Fin 4) (i 1) k :=
  funext fun a => Fin.ext (by
    have h1 : (i 1).val < 2560 := (i 1).isLt
    have hk : k.val < 2560 := k.isLt
    match a with
    | ⟨0, _⟩ => rfl
    | ⟨1, _⟩ => show ((i 1).val * 2560 + k.val) / 2560 % 2560 = (i 1).val; omega
    | ⟨2, _⟩ => show ((i 1).val * 2560 + k.val) % 2560 = k.val; omega)
/-- Layer 3: the weight matrix at `(o, k)` is the stack at `(3, o, k)`. -/
theorem widx3 (i : S4096x2560.Idx) (k : Fin 2560) :
    idx_main_v28 (idx_main_v29 (ridx_main_v30 i k)) = ix3 (3 : Fin 4) (i 1) k :=
  funext fun a => Fin.ext (by
    have h1 : (i 1).val < 2560 := (i 1).isLt
    have hk : k.val < 2560 := k.isLt
    match a with
    | ⟨0, _⟩ => rfl
    | ⟨1, _⟩ => show ((i 1).val * 2560 + k.val) / 2560 % 2560 = (i 1).val; omega
    | ⟨2, _⟩ => show ((i 1).val * 2560 + k.val) % 2560 = k.val; omega)

/-- Layer 0: the bias row, broadcast along the rows, reads the bias stack at `(0, o)`. -/
theorem bidx0 (i : S4096x2560.Idx) :
    idx_main_v4 (idx_main_v5 (idx_main_v6 (idx_main_v7 i))) = ix2 (0 : Fin 4) (i 1) :=
  funext fun a => Fin.ext (by
    have h1 : (i 1).val < 2560 := (i 1).isLt
    match a with
    | ⟨0, _⟩ => rfl
    | ⟨1, _⟩ => show (i 1).val % 2560 = (i 1).val; omega)
/-- Layer 1: the bias reads the bias stack at `(1, o)`. -/
theorem bidx1 (i : S4096x2560.Idx) :
    idx_main_v13 (idx_main_v14 (idx_main_v15 (idx_main_v16 i))) = ix2 (1 : Fin 4) (i 1) :=
  funext fun a => Fin.ext (by
    have h1 : (i 1).val < 2560 := (i 1).isLt
    match a with
    | ⟨0, _⟩ => rfl
    | ⟨1, _⟩ => show (i 1).val % 2560 = (i 1).val; omega)
/-- Layer 2: the bias reads the bias stack at `(2, o)`. -/
theorem bidx2 (i : S4096x2560.Idx) :
    idx_main_v22 (idx_main_v23 (idx_main_v24 (idx_main_v25 i))) = ix2 (2 : Fin 4) (i 1) :=
  funext fun a => Fin.ext (by
    have h1 : (i 1).val < 2560 := (i 1).isLt
    match a with
    | ⟨0, _⟩ => rfl
    | ⟨1, _⟩ => show (i 1).val % 2560 = (i 1).val; omega)
/-- Layer 3: the bias reads the bias stack at `(3, o)`. -/
theorem bidx3 (i : S4096x2560.Idx) :
    idx_main_v31 (idx_main_v32 (idx_main_v33 (idx_main_v34 i))) = ix2 (3 : Fin 4) (i 1) :=
  funext fun a => Fin.ext (by
    have h1 : (i 1).val < 2560 := (i 1).isLt
    match a with
    | ⟨0, _⟩ => rfl
    | ⟨1, _⟩ => show (i 1).val % 2560 = (i 1).val; omega)

/-! ## The four square layers

Each is `max (∑ k, Y r k * W l o k + B l o) 0` at `(r, o)`, with `Y` the layer before. -/

/-- Layer 0 on the concatenated input. -/
theorem layer0 (x0 : (⟨S4096x512, .f32⟩ : BufTy).Contents (Elt Ideal)) (x1 : (⟨S4096x2048, .f32⟩ : BufTy).Contents (Elt Ideal))
    (x2 : (⟨S4x2560x2560, .f32⟩ : BufTy).Contents (Elt Ideal)) (x3 : (⟨S4x2560, .f32⟩ : BufTy).Contents (Elt Ideal)) :
    val_main_v9 (F := Ideal) x0 x1 x2 x3
      = Mlp.reluLayer (M := 4096) (N := 2560) (K := 2560) (val_main_v0 (F := Ideal) x0 x1)
          (Mlp.wAt (L := 4) (N := 2560) (K := 2560) x2 0) (Mlp.bAt (L := 4) (N := 2560) x3 0) := by
  funext i
  rw [val_main_v9_apply, val_main_v8_apply, val_main_v3_apply, val_main_v7_apply, val_main_v6_apply, val_main_v5_apply,
    val_main_v4_apply, val_main_call0_v0_apply, val_main_call0_cst_apply, bidx0]
  refine congrArg₂ max (congrArg₂ (· + ·) (Finset.sum_congr rfl fun k _ => ?_) rfl) rfl
  rw [val_main_v2_apply, val_main_v1_apply, widx0, lidx0]
  rfl

/-- Layer 1 on layer 0. -/
theorem layer1 (x0 : (⟨S4096x512, .f32⟩ : BufTy).Contents (Elt Ideal)) (x1 : (⟨S4096x2048, .f32⟩ : BufTy).Contents (Elt Ideal))
    (x2 : (⟨S4x2560x2560, .f32⟩ : BufTy).Contents (Elt Ideal)) (x3 : (⟨S4x2560, .f32⟩ : BufTy).Contents (Elt Ideal)) :
    val_main_v18 (F := Ideal) x0 x1 x2 x3
      = Mlp.reluLayer (M := 4096) (N := 2560) (K := 2560) (val_main_v9 (F := Ideal) x0 x1 x2 x3)
          (Mlp.wAt (L := 4) (N := 2560) (K := 2560) x2 1) (Mlp.bAt (L := 4) (N := 2560) x3 1) := by
  funext i
  rw [val_main_v18_apply, val_main_v17_apply, val_main_v12_apply, val_main_v16_apply, val_main_v15_apply, val_main_v14_apply,
    val_main_v13_apply, val_main_call1_v0_apply, val_main_call1_cst_apply, bidx1]
  refine congrArg₂ max (congrArg₂ (· + ·) (Finset.sum_congr rfl fun k _ => ?_) rfl) rfl
  rw [val_main_v11_apply, val_main_v10_apply, widx1, lidx1]
  rfl

/-- Layer 2 on layer 1. -/
theorem layer2 (x0 : (⟨S4096x512, .f32⟩ : BufTy).Contents (Elt Ideal)) (x1 : (⟨S4096x2048, .f32⟩ : BufTy).Contents (Elt Ideal))
    (x2 : (⟨S4x2560x2560, .f32⟩ : BufTy).Contents (Elt Ideal)) (x3 : (⟨S4x2560, .f32⟩ : BufTy).Contents (Elt Ideal)) :
    val_main_v27 (F := Ideal) x0 x1 x2 x3
      = Mlp.reluLayer (M := 4096) (N := 2560) (K := 2560) (val_main_v18 (F := Ideal) x0 x1 x2 x3)
          (Mlp.wAt (L := 4) (N := 2560) (K := 2560) x2 2) (Mlp.bAt (L := 4) (N := 2560) x3 2) := by
  funext i
  rw [val_main_v27_apply, val_main_v26_apply, val_main_v21_apply, val_main_v25_apply, val_main_v24_apply, val_main_v23_apply,
    val_main_v22_apply, val_main_call2_v0_apply, val_main_call2_cst_apply, bidx2]
  refine congrArg₂ max (congrArg₂ (· + ·) (Finset.sum_congr rfl fun k _ => ?_) rfl) rfl
  rw [val_main_v20_apply, val_main_v19_apply, widx2, lidx2]
  rfl

/-- Layer 3 on layer 2. -/
theorem layer3 (x0 : (⟨S4096x512, .f32⟩ : BufTy).Contents (Elt Ideal)) (x1 : (⟨S4096x2048, .f32⟩ : BufTy).Contents (Elt Ideal))
    (x2 : (⟨S4x2560x2560, .f32⟩ : BufTy).Contents (Elt Ideal)) (x3 : (⟨S4x2560, .f32⟩ : BufTy).Contents (Elt Ideal)) :
    val_main_v36 (F := Ideal) x0 x1 x2 x3
      = Mlp.reluLayer (M := 4096) (N := 2560) (K := 2560) (val_main_v27 (F := Ideal) x0 x1 x2 x3)
          (Mlp.wAt (L := 4) (N := 2560) (K := 2560) x2 3) (Mlp.bAt (L := 4) (N := 2560) x3 3) := by
  funext i
  rw [val_main_v36_apply, val_main_v35_apply, val_main_v30_apply, val_main_v34_apply, val_main_v33_apply, val_main_v32_apply,
    val_main_v31_apply, val_main_call3_v0_apply, val_main_call3_cst_apply, bidx3]
  refine congrArg₂ max (congrArg₂ (· + ·) (Finset.sum_congr rfl fun k _ => ?_) rfl) rfl
  rw [val_main_v29_apply, val_main_v28_apply, widx3, lidx3]
  rfl

/-- The four layers in a row are the trunk. -/
theorem trunk_eq (x0 : (⟨S4096x512, .f32⟩ : BufTy).Contents (Elt Ideal)) (x1 : (⟨S4096x2048, .f32⟩ : BufTy).Contents (Elt Ideal))
    (x2 : (⟨S4x2560x2560, .f32⟩ : BufTy).Contents (Elt Ideal)) (x3 : (⟨S4x2560, .f32⟩ : BufTy).Contents (Elt Ideal)) :
    val_main_v36 (F := Ideal) x0 x1 x2 x3 = Mlp.trunk (val_main_v0 (F := Ideal) x0 x1) x2 x3 := by
  rw [layer3, layer2, layer1, layer0]
  rfl

/-! ## The two heads -/

/-- The hidden head's left operand at `(r, k)`. -/
theorem lidxH (i : S4096x2048.Idx) (k : Fin 2560) : lidx_main_v37 i k = ix2 (i 0) k :=
  funext fun a => match a with | ⟨0, _⟩ => rfl | ⟨1, _⟩ => rfl
/-- The hidden head's weights at `(o, k)`. -/
theorem ridxH (i : S4096x2048.Idx) (k : Fin 2560) : ridx_main_v37 i k = ix2 (i 1) k :=
  funext fun a => match a with | ⟨0, _⟩ => rfl | ⟨1, _⟩ => rfl
/-- The hidden head's bias, broadcast along the rows, at `o`. -/
theorem bidxH (i : S4096x2048.Idx) : idx_main_v38 (idx_main_v39 i) = ix1 (i 1) :=
  funext fun a => match a with | ⟨0, _⟩ => rfl
/-- The output head's left operand at `(r, k)`. -/
theorem lidxO (i : S4096x512.Idx) (k : Fin 2560) : lidx_main_v42 i k = ix2 (i 0) k :=
  funext fun a => match a with | ⟨0, _⟩ => rfl | ⟨1, _⟩ => rfl
/-- The output head's weights at `(o, k)`. -/
theorem ridxO (i : S4096x512.Idx) (k : Fin 2560) : ridx_main_v42 i k = ix2 (i 1) k :=
  funext fun a => match a with | ⟨0, _⟩ => rfl | ⟨1, _⟩ => rfl
/-- The output head's bias, broadcast along the rows, at `o`. -/
theorem bidxO (i : S4096x512.Idx) : idx_main_v43 (idx_main_v44 i) = ix1 (i 1) :=
  funext fun a => match a with | ⟨0, _⟩ => rfl

/-- The hidden head: `tanh (∑ k, T r k * W_h o k + b_h o)` on the trunk `T`. -/
theorem hidden_eq (x0 : (⟨S4096x512, .f32⟩ : BufTy).Contents (Elt Ideal)) (x1 : (⟨S4096x2048, .f32⟩ : BufTy).Contents (Elt Ideal))
    (x2 : (⟨S4x2560x2560, .f32⟩ : BufTy).Contents (Elt Ideal)) (x3 : (⟨S4x2560, .f32⟩ : BufTy).Contents (Elt Ideal))
    (x4 : (⟨S2048x2560, .f32⟩ : BufTy).Contents (Elt Ideal)) (x5 : (⟨S2048, .f32⟩ : BufTy).Contents (Elt Ideal)) :
    val_main_v41 (F := Ideal) x0 x1 x2 x3 x4 x5 = Mlp.hidden (val_main_v0 (F := Ideal) x0 x1) x2 x3 x4 x5 := by
  funext i
  rw [val_main_v41_apply, val_main_v40_apply, val_main_v37_apply, val_main_v39_apply, val_main_v38_apply, bidxH, trunk_eq]
  refine congrArg Ideal.tanh (congrArg₂ (· + ·) (Finset.sum_congr rfl fun k _ => ?_) rfl)
  exact congrArg₂ (· * ·) (congrArg _ (lidxH i k)) (congrArg _ (ridxH i k))

/-- The output head: `∑ k, T r k * W_o o k + b_o o` on the trunk `T`. -/
theorem output_eq (x0 : (⟨S4096x512, .f32⟩ : BufTy).Contents (Elt Ideal)) (x1 : (⟨S4096x2048, .f32⟩ : BufTy).Contents (Elt Ideal))
    (x2 : (⟨S4x2560x2560, .f32⟩ : BufTy).Contents (Elt Ideal)) (x3 : (⟨S4x2560, .f32⟩ : BufTy).Contents (Elt Ideal))
    (x6 : (⟨S512x2560, .f32⟩ : BufTy).Contents (Elt Ideal)) (x7 : (⟨S512, .f32⟩ : BufTy).Contents (Elt Ideal)) :
    val_main_v45 (F := Ideal) x0 x1 x2 x3 x6 x7 = Mlp.output (val_main_v0 (F := Ideal) x0 x1) x2 x3 x6 x7 := by
  funext i
  rw [val_main_v45_apply, val_main_v42_apply, val_main_v44_apply, val_main_v43_apply, bidxO, trunk_eq]
  refine congrArg₂ (· + ·) (Finset.sum_congr rfl fun k _ => ?_) rfl
  exact congrArg₂ (· * ·) (congrArg _ (lidxO i k)) (congrArg _ (ridxO i k))

/-! ## The run -/

/-- The concatenated input `[x, h]` along the columns, as the program forms it. -/
abbrev X0 (m : (ℓ : Loc nD τ sig) → Buf (Elt Ideal) ℓ) (c : Dev nD) : Mlp.Mat 4096 2560 :=
  concatenate S4096x2560 1 [⟨S4096x512, m ((c.tc : Thread nD τ).loc main_arg0)⟩, ⟨S4096x2048, m ((c.tc : Thread nD τ).loc main_arg1)⟩] concatenates_S4096x512_S4096x2048_S4096x2560_d1

/-- Every weakly fair execution of the reference program terminates with its two results the network's output and
    hidden heads of the launch contents of its arguments, and the arguments unchanged. -/
theorem run_spec (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v45) = Mlp.output (X0 m c) (m ((c.tc : Thread nD τ).loc main_arg2)) (m ((c.tc : Thread nD τ).loc main_arg3)) (m ((c.tc : Thread nD τ).loc main_arg6)) (m ((c.tc : Thread nD τ).loc main_arg7))
      ∧ r.2.mem ((c.tc : Thread nD τ).loc main_v41) = Mlp.hidden (X0 m c) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c =>
      ⟨(h c).1.trans ((val_main_v45_eq (F := Ideal) _ _ _ _ _ _).trans (output_eq _ _ _ _ _ _)),
       (h c).2.1.trans ((val_main_v41_eq (F := Ideal) _ _ _ _ _ _).trans (hidden_eq _ _ _ _ _ _)),
       (h c).2.2⟩)
    (Cert.ReferenceIdeal.Value.run (F := Ideal) m ρ)

end Cert.ReferenceIdeal.RefValue

end
-- ==== Proof.lean ====
/-
  The kernel and its reference compute one function of their eight arguments over the extended reals.

  Both concatenate the two inputs into a 4096 × 2560 matrix, pass it through four affine layers of width 2560 with the
  positive part after each (layer `l` with the `l`-th slices of the stacked weights and biases), and apply two heads to the
  result: an affine layer of width 2048 under `tanh` and a plain affine layer of width 512. An affine layer's entry
  `(r, o)` is `(∑ k, x r k * w o k) + b o` (Proof/Spec.lean). The kernel computes each layer in eight blocks of 512 rows,
  after rounding its operands to a narrower float format, which at the ideal instance is the identity; a row of a layer's
  output depends on that row of its input only, so the eight blocks of a region are the layer on the whole matrix
  (Proof/Region0.lean … Region5.lean), and reading the program's buffers back from its last one to the launch memory
  composes the six layers (Proof/KernelChain.lean, over the run of Proof/KernelRun.lean). The reference computes each layer
  on the whole matrix, and its run's composed term is the same composition (Proof/RefValue.lean). No law of the extended
  reals beyond the definitions is needed: the two sides are the same sums in the same order, so the inputs' finiteness
  is never used. The three frames are the generated ones; the idealization rewrote nothing.
-/
import proofs.«151112_j81827716924021_1_alg».proof.Defs
import proofs.«151112_j81827716924021_1_alg».proof.Proof.Gen.Kernel
import proofs.«151112_j81827716924021_1_alg».proof.Proof.Gen.Kernel.Frame
import proofs.«151112_j81827716924021_1_alg».proof.Proof.Gen.KernelIdeal
import proofs.«151112_j81827716924021_1_alg».proof.Proof.Gen.KernelIdeal.Frame
import proofs.«151112_j81827716924021_1_alg».proof.Proof.Gen.ReferenceIdeal
import proofs.«151112_j81827716924021_1_alg».proof.Proof.Gen.ReferenceIdeal.Run
import proofs.«151112_j81827716924021_1_alg».proof.Proof.Gen.Pre_finite_inputs
import proofs.«151112_j81827716924021_1_alg».proof.Proof.KernelChain
import proofs.«151112_j81827716924021_1_alg».proof.Proof.RefValue
import Idealize.ShloMosaic.Adequacy
import Idealize.ShloMosaic.Init

noncomputable section

namespace Cert.Proof

open Idealize.ShloMosaic Idealize.SL.Sem

/-- The word-level kernel runs and leaves its arguments as launched. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is host operations only: its run, with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- From memories that agree on the arguments both programs end with the output head and the hidden head of the same
    network of the same arguments. -/
theorem algebraic : Cert.algebraic_KernelIdeal_ReferenceIdeal := by
  intro m ρ m' ρ' _ hagree
  refine ⟨_, _, Cert.KernelIdeal.Chain.run_spec m ρ, ?_⟩
  refine (θ_run Cert.ReferenceIdeal.defs _ _).mono (fun r h c => ?_) (Cert.ReferenceIdeal.RefValue.run_spec m' ρ')
  obtain ⟨a0, a1, a2, a3, a4, a5, a6, a7⟩ := hagree c
  have e : Cert.ReferenceIdeal.RefValue.X0 m' c = Cert.KernelIdeal.Chain.X0 m c := by
    unfold Cert.ReferenceIdeal.RefValue.X0 Cert.KernelIdeal.Chain.X0
    rw [a0, a1]
  refine ⟨(h c).1.trans ?_, (h c).2.1.trans ?_, (h c).2.2⟩
  · rw [e, a2, a3, a6, a7]
  · rw [e, a2, a3, a4, a5]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
